-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v1_0)) (v8 : (c : Dev Cert.KernelIdeal.nD) → Buf (Elt Ideal) ((c.tc : Thread Cert.KernelIdeal.nD Cert.KernelIdeal.τ).loc Cert.KernelIdeal.main_v1_1)) (v9 : (c : Dev Cert.KernelIdeal.nD) → Buf (Elt Ideal) ((c.tc : Thread Cert.KernelIdeal.nD Cert.KernelIdeal.τ).loc Cert.KernelIdeal.main_v1_2)) (v10 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v1_0) = v7 c
          ∧ r.2.mem ((c.tc : Thread Cert.KernelIdeal.nD Cert.KernelIdeal.τ).loc Cert.KernelIdeal.main_v1_1) = v8 c
          ∧ r.2.mem ((c.tc : Thread Cert.KernelIdeal.nD Cert.KernelIdeal.τ).loc Cert.KernelIdeal.main_v1_2) = v9 c
          ∧ r.2.mem ((c.tc : Thread Cert.KernelIdeal.nD Cert.KernelIdeal.τ).loc Cert.KernelIdeal.main_v1_3) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_v113) = v6 c
          ∧ r.2.mem ((c.tc : Thread Cert.ReferenceIdeal.nD Cert.ReferenceIdeal.τ).loc Cert.ReferenceIdeal.main_v126) = v7 c
          ∧ r.2.mem ((c.tc : Thread Cert.ReferenceIdeal.nD Cert.ReferenceIdeal.τ).loc Cert.ReferenceIdeal.main_v133) = v8 c
          ∧ r.2.mem ((c.tc : Thread Cert.ReferenceIdeal.nD Cert.ReferenceIdeal.τ).loc Cert.ReferenceIdeal.main_v140) = v9 c
          ∧ r.2.mem ((c.tc : Thread Cert.ReferenceIdeal.nD Cert.ReferenceIdeal.τ).loc Cert.ReferenceIdeal.main_v148) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128x256x512 : S_.BroadcastsInDim S128x256x512 (![] : Fin 0 → Fin S128x256x512.rank)
  reducesTo_S128x256x512_S_d0_1_2 : S128x256x512.ReducesTo [0, 1, 2] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S256x512 .f32) (main_arg12 : FVec F S256x512 .f32) (main_arg13 : FVec F S512 .f32) (main_arg14 : FVec F S512 .f32) (main_v48 : IVec S_ 1) (main_v49 : FVec F S128x256x512 .f32) (main_v50 : FVec F S128x256x512 .f32) : IVec S_ 1 :=
  let main_v51 : IVec S128x256x512 1 := cmpf .olt main_v49 main_v50
  let main_c_19 : IVec S_ 1 := constantI S_ 1 1#1
  let main_v52 : IVec S_ 1 := (fun x v => Host.reduce IntOp.andi x v reducesTo_S128x256x512_S_d0_1_2 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) (main_v33 : IVec S_ 1) : IVec S_ 1 :=
  let main_v34 : FVec F S128x256x512 .f32 := Host.absf main_arg7
  let main_cst_12 : FVec F S_ .f32 := constant S_ .f32 0x7F800000#32
  let main_v35 : FVec F S128x256x512 .f32 := broadcastInDim S128x256x512 ![] bcast_S_S128x256x512 main_cst_12
  let main_v36 : IVec S128x256x512 1 := cmpf .olt main_v34 main_v35
  let main_c_13 : IVec S_ 1 := constantI S_ 1 1#1
  let main_v37 : IVec S_ 1 := (fun x v => Host.reduce IntOp.andi x v reducesTo_S128x256x512_S_d0_1_2 h_S_) main_v36 main_c_13
  let main_v38 : IVec S_ 1 := andi main_v33 main_v37
  let main_v39 : FVec F S128x256x512 .f32 := Host.absf main_arg8
  let main_cst_14 : FVec F S_ .f32 := constant S_ .f32 0x7F800000#32
  let main_v40 : FVec F S128x256x512 .f32 := broadcastInDim S128x256x512 ![] bcast_S_S128x256x512 main_cst_14
  let main_v41 : IVec S128x256x512 1 := cmpf .olt main_v39 main_v40
  let main_c_15 : IVec S_ 1 := constantI S_ 1 1#1
  let main_v42 : IVec S_ 1 := (fun x v => Host.reduce IntOp.andi x v reducesTo_S128x256x512_S_d0_1_2 h_S_) main_v41 main_c_15
  let main_v43 : IVec S_ 1 := andi main_v38 main_v42
  let main_v44 : FVec F S128x256x512 .f32 := Host.absf main_arg9
  let main_cst_16 : FVec F S_ .f32 := constant S_ .f32 0x7F800000#32
  let main_v45 : FVec F S128x256x512 .f32 := broadcastInDim S128x256x512 ![] bcast_S_S128x256x512 main_cst_16
  let main_v46 : IVec S128x256x512 1 := cmpf .olt main_v44 main_v45
  let main_c_17 : IVec S_ 1 := constantI S_ 1 1#1
  let main_v47 : IVec S_ 1 := (fun x v => Host.reduce IntOp.andi x v reducesTo_S128x256x512_S_d0_1_2 h_S_) main_v46 main_c_17
  let main_v48 : IVec S_ 1 := andi main_v43 main_v47
  let main_v49 : FVec F S128x256x512 .f32 := Host.absf main_arg10
  let main_cst_18 : FVec F S_ .f32 := constant S_ .f32 0x7F800000#32
  let main_v50 : FVec F S128x256x512 .f32 := broadcastInDim S128x256x512 ![] bcast_S_S128x256x512 main_cst_18
  fn_part3 (F := F) main_arg11 main_arg12 main_arg13 main_arg14 main_v48 main_v49 main_v50

def fn_part1 {F : FTy → Type} [FloatOps F] (main_arg4 : FVec F S128x512 .f32) (main_arg5 : FVec F S128x512 .f32) (main_arg6 : FVec F S128x512 .f32) (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x256 .f32) (main_arg1 : FVec F S128x512 .f32) (main_arg2 : FVec F S128x512 .f32) (main_arg3 : FVec F S128x512 .f32) (main_arg4 : FVec F S128x512 .f32) (main_arg5 : FVec F S128x512 .f32) (main_arg6 : FVec F S128x512 .f32) (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S128x1024 : Shape := ⟨2, ![128, 1024]⟩
abbrev S1x512 : Shape := ⟨2, ![1, 512]⟩
abbrev S8x256x128 : Shape := ⟨3, ![8, 256, 128]⟩
abbrev S8x256 : Shape := ⟨2, ![8, 256]⟩
abbrev S128 : Shape := ⟨1, ![128]⟩
abbrev S1x1x128 : Shape := ⟨3, ![1, 1, 128]⟩
abbrev S8x256x1 : Shape := ⟨3, ![8, 256, 1]⟩

abbrev nBuf : Space → Nat
  | .hbm => 26
  | .vmem => 40
  | .smem => 0
  | _ => 0

abbrev bufTy : (tb : Table) → Fin (tcTables nBuf tb) → BufTy
  | .hbm, ⟨0, _⟩ => ⟨S128x256, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x256x512, .f32⟩
  | .hbm, ⟨8, _⟩ => ⟨S128x256x512, .f32⟩
  | .hbm, ⟨9, _⟩ => ⟨S128x256x512, .f32⟩
  | .hbm, ⟨10, _⟩ => ⟨S128x256x512, .f32⟩
  | .hbm, ⟨11, _⟩ => ⟨S256x512, .f32⟩
  | .hbm, ⟨12, _⟩ => ⟨S256x512, .f32⟩
  | .hbm, ⟨13, _⟩ => ⟨S512, .f32⟩
  | .hbm, ⟨14, _⟩ => ⟨S512, .f32⟩
  | .hbm, ⟨15, _⟩ => ⟨S128x1024, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S128x256x512, .f32⟩
  | .hbm, ⟨23, _⟩ => ⟨S128x256x512, .f32⟩
  | .hbm, ⟨24, _⟩ => ⟨S128x256x512, .f32⟩
  | .hbm, ⟨25, _⟩ => ⟨S128x256x512, .f32⟩
  | .local _ .vmem, ⟨0, _⟩ => ⟨S128x256, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S256x512, .f32⟩
  | .local _ .vmem, ⟨8, _⟩ => ⟨S256x512, .f32⟩
  | .local _ .vmem, ⟨9, _⟩ => ⟨S512, .f32⟩
  | .local _ .vmem, ⟨10, _⟩ => ⟨S512, .f32⟩
  | .local _ .vmem, ⟨11, _⟩ => ⟨S128x1024, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S8x256x128, .f32⟩
  | .local _ .vmem, ⟨19, _⟩ => ⟨S8x256x128, .f32⟩
  | .local _ .vmem, ⟨20, _⟩ => ⟨S8x256x128, .f32⟩
  | .local _ .vmem, ⟨21, _⟩ => ⟨S8x256x128, .f32⟩
  | .local _ .vmem, ⟨22, _⟩ => ⟨S8x256x128, .f32⟩
  | .local _ .vmem, ⟨23, _⟩ => ⟨S8x256x128, .f32⟩
  | .local _ .vmem, ⟨24, _⟩ => ⟨S8x256x128, .f32⟩
  | .local _ .vmem, ⟨25, _⟩ => ⟨S8x256x128, .f32⟩
  | .local _ .vmem, ⟨26, _⟩ => ⟨S8x256, .f32⟩
  | .local _ .vmem, ⟨27, _⟩ => ⟨S8x256, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S8x256x128, .f32⟩
  | .local _ .vmem, ⟨33, _⟩ => ⟨S8x256x128, .f32⟩
  | .local _ .vmem, ⟨34, _⟩ => ⟨S8x256x128, .f32⟩
  | .local _ .vmem, ⟨35, _⟩ => ⟨S8x256x128, .f32⟩
  | .local _ .vmem, ⟨36, _⟩ => ⟨S8x256x128, .f32⟩
  | .local _ .vmem, ⟨37, _⟩ => ⟨S8x256x128, .f32⟩
  | .local _ .vmem, ⟨38, _⟩ => ⟨S8x256x128, .f32⟩
  | .local _ .vmem, ⟨39, _⟩ => ⟨S8x256x128, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v1_0 : Ref sig .tc := ⟨.hbm, 22, rfl⟩
abbrev main_v1_1 : Ref sig .tc := ⟨.hbm, 23, rfl⟩
abbrev main_v1_2 : Ref sig .tc := ⟨.hbm, 24, rfl⟩
abbrev main_v1_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S8x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  inb_S512_S512_0 : ∀ a, (![0] : Fin 1 → Nat) a + S512.size a ≤ S512.size a
  h_S512 : 0 < S512.numel
  shapeCasts_S512_S1x512 : S512.ShapeCasts S1x512
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S128x512_S128x512_0_0 : ∀ a, (![0, 0] : Fin 2 → Nat) a + S128x512.size a ≤ S128x512.size a
  h_S128x512 : 0 < S128x512.numel
  broadcasts_S1x512_S128x512 : S1x512.Broadcasts S128x512
  inb_S128x1024_S128x512_0_0 : ∀ a, (![0, 0] : Fin 2 → Nat) a + S128x512.size a ≤ S128x1024.size a
  inb_S128x1024_S128x512_0_512 : ∀ a, (![0, 512] : Fin 2 → Nat) a + S128x512.size a ≤ S128x1024.size a
  inb_S128_S128_0 : ∀ a, (![0] : Fin 1 → Nat) a + S128.size a ≤ S128.size a
  h_S128 : 0 < S128.numel
  shapeCasts_S128_S1x1x128 : S128.ShapeCasts S1x1x128
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  broadcasts_S1x1x128_S8x256x128 : S1x1x128.Broadcasts S8x256x128
  broadcasts_S8x256x1_S8x256x128 : S8x256x1.Broadcasts S8x256x128
  inb_S8x256x128_S8x256x128_0_0_0 : ∀ a, (![0, 0, 0] : Fin 3 → Nat) a + S8x256x128.size a ≤ S8x256x128.size a
  h_S8x256x128 : 0 < S8x256x128.numel
  dot_S128x256_S256x512_S128x512_1_0_0_1_n_n_wf : DotDims.WF S128x256 S256x512 S128x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .f32 = 32 ∨ (Rect.block (s := S256x512) S256x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S128x1024.size a
  hwx0_11 : ∀ i : grid0.Coords, EltTy.bits .f32 = 32 ∨ (Rect.block (s := S128x1024) S128x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S128x512.size a
  hwx0_12 : ∀ i : grid0.Coords, EltTy.bits .f32 = 32 ∨ (Rect.block (s := S128x512) S128x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x512.size a ≤ S128x512.size a
  hwx0_13 : ∀ i : grid0.Coords, EltTy.bits .f32 = 32 ∨ (Rect.block (s := S128x512) S128x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .f32 = 32 ∨ (Rect.block (s := S128x512) S128x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x512.size a ≤ S128x512.size a
  hwx0_15 : ∀ i : grid0.Coords, EltTy.bits .f32 = 32 ∨ (Rect.block (s := S128x512) S128x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S128x512.size a
  hwx0_16 : ∀ i : grid0.Coords, EltTy.bits .f32 = 32 ∨ (Rect.block (s := S128x512) S128x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x512.size a ≤ S128x512.size a
  hwx0_17 : ∀ i : grid0.Coords, EltTy.bits .f32 = 32 ∨ (Rect.block (s := S128x512) S128x512.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x128.size a ≤ S128x256x512.size a
  hwx1_0 : ∀ i : grid1.Coords, EltTy.bits .f32 = 32 ∨ (Rect.block (s := S128x256x512) S8x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x128.size a ≤ S128x256x512.size a
  hwx1_1 : ∀ i : grid1.Coords, EltTy.bits .f32 = 32 ∨ (Rect.block (s := S128x256x512) S8x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x128.size a ≤ S128x256x512.size a
  hwx1_2 : ∀ i : grid1.Coords, EltTy.bits .f32 = 32 ∨ (Rect.block (s := S128x256x512) S8x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x128.size a ≤ S128x256x512.size a
  hwx1_3 : ∀ i : grid1.Coords, EltTy.bits .f32 = 32 ∨ (Rect.block (s := S128x256x512) S8x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S128x256.size a
  hwx1_4 : ∀ i : grid1.Coords, EltTy.bits .f32 = 32 ∨ (Rect.block (s := S128x256) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S512.size a
  hwx1_5 : ∀ i : grid1.Coords, EltTy.bits .f32 = 32 ∨ (Rect.block (s := S512) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S512.size a
  hwx1_6 : ∀ i : grid1.Coords, EltTy.bits .f32 = 32 ∨ (Rect.block (s := S512) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256x128.size a ≤ S128x256x512.size a
  hwx1_7 : ∀ i : grid1.Coords, EltTy.bits .f32 = 32 ∨ (Rect.block (s := S128x256x512) S8x256x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x256x128.size a ≤ S128x256x512.size a
  hwx1_8 : ∀ i : grid1.Coords, EltTy.bits .f32 = 32 ∨ (Rect.block (s := S128x256x512) S8x256x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x256x128.size a ≤ S128x256x512.size a
  hwx1_9 : ∀ i : grid1.Coords, EltTy.bits .f32 = 32 ∨ (Rect.block (s := S128x256x512) S8x256x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8x256x128.size a ≤ S128x256x512.size a
  hwx1_10 : ∀ i : grid1.Coords, EltTy.bits .f32 = 32 ∨ (Rect.block (s := S128x256x512) S8x256x128.size (cc1_transform_10 i) (hinb1_10 i)).WholeWords (EltTy.packing .f32)

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S128x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S128x512.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S128x512.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_3) S128x512.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_4) S128x512.size cc0_transform_15 reads0_15 true true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0_5) S128x512.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_6) S128x512.size cc0_transform_17 reads0_17 true true 1 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg7) S8x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S8x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S8x256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S8x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_0) S8x256x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_1) S8x256x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_2) S8x256x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_3) S8x256x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S_ : Shape := ⟨0, ![]⟩
abbrev S1x512 : Shape := ⟨2, ![1, 512]⟩
abbrev S128x256x1 : Shape := ⟨3, ![128, 256, 1]⟩
abbrev S1x1x512 : Shape := ⟨3, ![1, 1, 512]⟩
abbrev S128x1024 : Shape := ⟨2, ![128, 1024]⟩

abbrev nBuf : Space → Nat
  | .hbm => 169
  | .vmem => 0
  | .smem => 0
  | _ => 0

abbrev hbmTy0_0 (i : Nat) : BufTy := match i % 128 with
  | 0 => ⟨S128x256, .f32⟩
  | 1 => ⟨S128x512, .f32⟩
  | 2 => ⟨S128x512, .f32⟩
  | 3 => ⟨S128x512, .f32⟩
  | 4 => ⟨S128x512, .f32⟩
  | 5 => ⟨S128x512, .f32⟩
  | 6 => ⟨S128x512, .f32⟩
  | 7 => ⟨S128x256x512, .f32⟩
  | 8 => ⟨S128x256x512, .f32⟩
  | 9 => ⟨S128x256x512, .f32⟩
  | 10 => ⟨S128x256x512, .f32⟩
  | 11 => ⟨S256x512, .f32⟩
  | 12 => ⟨S256x512, .f32⟩
  | 13 => ⟨S512, .f32⟩
  | 14 => ⟨S512, .f32⟩
  | 15 => ⟨S512, .f32⟩
  | 16 => ⟨S512, .f32⟩
  | 17 => ⟨S512, .f32⟩
  | 18 => ⟨S512, .f32⟩
  | 19 => ⟨S512, .f32⟩
  | 20 => ⟨S_, .f32⟩
  | 21 => ⟨S512, .f32⟩
  | 22 => ⟨S512, .f32⟩
  | 23 => ⟨S512, .f32⟩
  | 24 => ⟨S512, .f32⟩
  | 25 => ⟨S512, .f32⟩
  | 26 => ⟨S512, .f32⟩
  | 27 => ⟨S512, .f32⟩
  | 28 => ⟨S128x512, .f32⟩
  | 29 => ⟨S128x512, .f32⟩
  | 30 => ⟨S1x512, .f32⟩
  | 31 => ⟨S128x512, .f32⟩
  | 32 => ⟨S128x512, .f32⟩
  | 33 => ⟨S1x512, .f32⟩
  | 34 => ⟨S128x512, .f32⟩
  | 35 => ⟨S128x512, .f32⟩
  | 36 => ⟨S128x512, .f32⟩
  | 37 => ⟨S1x512, .f32⟩
  | 38 => ⟨S128x512, .f32⟩
  | 39 => ⟨S128x512, .f32⟩
  | 40 => ⟨S128x512, .f32⟩
  | 41 => ⟨S1x512, .f32⟩
  | 42 => ⟨S128x512, .f32⟩
  | 43 => ⟨S128x512, .f32⟩
  | 44 => ⟨S1x512, .f32⟩
  | 45 => ⟨S128x512, .f32⟩
  | 46 => ⟨S128x512, .f32⟩
  | 47 => ⟨S128x512, .f32⟩
  | 48 => ⟨S1x512, .f32⟩
  | 49 => ⟨S128x512, .f32⟩
  | 50 => ⟨S128x512, .f32⟩
  | 51 => ⟨S128x512, .f32⟩
  | 52 => ⟨S512, .f32⟩
  | 53 => ⟨S512, .f32⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S1x512, .f32⟩
  | 63 => ⟨S128x512, .f32⟩
  | 64 => ⟨S128x512, .f32⟩
  | 65 => ⟨S1x512, .f32⟩
  | 66 => ⟨S128x512, .f32⟩
  | 67 => ⟨S128x512, .f32⟩
  | 68 => ⟨S128x512, .f32⟩
  | 69 => ⟨S1x512, .f32⟩
  | 70 => ⟨S128x512, .f32⟩
  | 71 => ⟨S128x512, .f32⟩
  | 72 => ⟨S128x512, .f32⟩
  | 73 => ⟨S1x512, .f32⟩
  | 74 => ⟨S128x512, .f32⟩
  | 75 => ⟨S128x512, .f32⟩
  | 76 => ⟨S128x512, .f32⟩
  | 77 => ⟨S1x512, .f32⟩
  | 78 => ⟨S128x512, .f32⟩
  | 79 => ⟨S128x512, .f32⟩
  | 80 => ⟨S128x512, .f32⟩
  | 81 => ⟨S1x512, .f32⟩
  | 82 => ⟨S128x512, .f32⟩
  | 83 => ⟨S128x512, .f32⟩
  | 84 => ⟨S1x512, .f32⟩
  | 85 => ⟨S128x512, .f32⟩
  | 86 => ⟨S128x512, .f32⟩
  | 87 => ⟨S128x512, .f32⟩
  | 88 => ⟨S1x512, .f32⟩
  | 89 => ⟨S128x512, .f32⟩
  | 90 => ⟨S128x512, .f32⟩
  | 91 => ⟨S128x512, .f32⟩
  | 92 => ⟨S1x512, .f32⟩
  | 93 => ⟨S128x512, .f32⟩
  | 94 => ⟨S128x512, .f32⟩
  | 95 => ⟨S128x512, .f32⟩
  | 96 => ⟨S1x512, .f32⟩
  | 97 => ⟨S128x512, .f32⟩
  | 98 => ⟨S128x512, .f32⟩
  | 99 => ⟨S128x512, .f32⟩
  | 100 => ⟨S1x512, .f32⟩
  | 101 => ⟨S128x512, .f32⟩
  | 102 => ⟨S128x512, .f32⟩
  | 103 => ⟨S1x512, .f32⟩
  | 104 => ⟨S128x512, .f32⟩
  | 105 => ⟨S128x512, .f32⟩
  | 106 => ⟨S128x512, .f32⟩
  | 107 => ⟨S1x512, .f32⟩
  | 108 => ⟨S128x512, .f32⟩
  | 109 => ⟨S128x512, .f32⟩
  | 110 => ⟨S128x512, .f32⟩
  | 111 => ⟨S1x512, .f32⟩
  | 112 => ⟨S128x512, .f32⟩
  | 113 => ⟨S128x512, .f32⟩
  | 114 => ⟨S128x512, .f32⟩
  | 115 => ⟨S1x512, .f32⟩
  | 116 => ⟨S128x512, .f32⟩
  | 117 => ⟨S128x512, .f32⟩
  | 118 => ⟨S1x512, .f32⟩
  | 119 => ⟨S128x512, .f32⟩
  | 120 => ⟨S128x512, .f32⟩
  | 121 => ⟨S128x512, .f32⟩
  | 122 => ⟨S1x512, .f32⟩
  | 123 => ⟨S128x512, .f32⟩
  | 124 => ⟨S128x512, .f32⟩
  | 125 => ⟨S128x512, .f32⟩
  | 126 => ⟨S1x512, .f32⟩
  | 127 => ⟨S128x512, .f32⟩
  | _ => ⟨S128x256, .f32⟩

abbrev hbmTy0_1 (i : Nat) : BufTy := match i % 128 with
  | 0 => ⟨S128x512, .f32⟩
  | 1 => ⟨S128x512, .f32⟩
  | 2 => ⟨S128x256x1, .f32⟩
  | 3 => ⟨S1x1x512, .f32⟩
  | 4 => ⟨S128x256x512, .f32⟩
  | 5 => ⟨S128x256x512, .f32⟩
  | 6 => ⟨S128x256x512, .f32⟩
  | 7 => ⟨S1x1x512, .f32⟩
  | 8 => ⟨S128x256x512, .f32⟩
  | 9 => ⟨S128x256x512, .f32⟩
  | 10 => ⟨S1x1x512, .f32⟩
  | 11 => ⟨S128x256x512, .f32⟩
  | 12 => ⟨S128x256x512, .f32⟩
  | 13 => ⟨S128x256x512, .f32⟩
  | 14 => ⟨S128x256x512, .f32⟩
  | 15 => ⟨S1x1x512, .f32⟩
  | 16 => ⟨S128x256x512, .f32⟩
  | 17 => ⟨S128x256x512, .f32⟩
  | 18 => ⟨S1x1x512, .f32⟩
  | 19 => ⟨S128x256x512, .f32⟩
  | 20 => ⟨S128x256x512, .f32⟩
  | 21 => ⟨S128x256x512, .f32⟩
  | 22 => ⟨S1x1x512, .f32⟩
  | 23 => ⟨S128x256x512, .f32⟩
  | 24 => ⟨S128x256x512, .f32⟩
  | 25 => ⟨S1x1x512, .f32⟩
  | 26 => ⟨S128x256x512, .f32⟩
  | 27 => ⟨S128x256x512, .f32⟩
  | 28 => ⟨S128x256x512, .f32⟩
  | 29 => ⟨S1x1x512, .f32⟩
  | 30 => ⟨S128x256x512, .f32⟩
  | 31 => ⟨S128x256x512, .f32⟩
  | 32 => ⟨S1x1x512, .f32⟩
  | 33 => ⟨S128x256x512, .f32⟩
  | 34 => ⟨S128x256x512, .f32⟩
  | 35 => ⟨S128x256x512, .f32⟩
  | 36 => ⟨S128x256x512, .f32⟩
  | 37 => ⟨S128x1024, .f32⟩
  | 38 => ⟨S_, .f32⟩
  | 39 => ⟨S128x1024, .f32⟩
  | 40 => ⟨S128x1024, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_call0_cst : Ref sig .tc := ⟨.hbm, 166, rfl⟩
abbrev main_call0_v0 : Ref sig .tc := ⟨.hbm, 167, rfl⟩
abbrev main_v150 : Ref sig .tc := ⟨.hbm, 168, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S128x256_S128x256x1_0_1 : S128x256.BroadcastsInDim S128x256x1 (![0, 1] : Fin 2 → Fin S128x256x1.rank)
  bcast_S512_S1x1x512_2 : S512.BroadcastsInDim S1x1x512 (![2] : Fin 1 → Fin S1x1x512.rank)
  bcast_S1x1x512_S128x256x512_0_1_2 : S1x1x512.BroadcastsInDim S128x256x512 (![0, 1, 2] : Fin 3 → Fin S128x256x512.rank)
  bcast_S128x256x1_S128x256x512_0_1_2 : S128x256x1.BroadcastsInDim S128x256x512 (![0, 1, 2] : Fin 3 → Fin S128x256x512.rank)
  concatenates_S128x512_S128x512_S128x1024_d1 : Shape.Concatenates [S128x512, S128x512] S128x1024 1
  bcast_S_S128x1024 : S_.BroadcastsInDim S128x1024 (![] : Fin 0 → Fin S128x1024.rank)
  dot_S128x256_S256x512_S128x512_1_0_0_1_n_n_wf : DotDims.WF S128x256 S256x512 S128x512 [1] [0] [0] [1] [] []

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

class Facts : Prop extends Facts₀ where

variable [Facts]
-- ==== Proof.LibLayout.lean ====
/-
  Layout facts used by both kernels of this certificate, over arbitrary extents.

  A vector of per-channel coefficients meets a batch of matrices in two ways. The kernels cast the vector to a shape with
  leading unit axes and broadcast it down those axes; the reference broadcasts the vector along its own (last) axis in two
  steps. Read at an index, all of them pick the coefficient of the index's last coordinate. The lemmas here read each such
  cast or broadcast at an index written by coordinates, state the two-dimensional pair as one equation of arrays, and note
  that a matrix product whose operands were narrowed to bf16 and accumulated into zeros is, on extended reals, the plain
  contraction of the un-narrowed operands.
-/
import Idealize.ShloMosaic.Lib.ValueLayout
import Idealize.ShloMosaic.Lib.KernelVsHost

namespace Idealize.ShloMosaic.ValueIdx

open Idealize.ShloMosaic

variable {α : Type}

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, 1, c]` array broadcast to `[a, b, c]` reads, at `(i, j, k)`, its one fibre at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector broadcast along axis 1 of `[1, n]` reads, at `(u, t)`, the vector at `t`. -/
theorem broadcastInDim_a_1a_apply {n : ℕ} (hd : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] hd x (ix2 u t) = x (ix1 t) := by
  refine broadcastInDim_apply ![1] hd x (ix2 u t) (ix1 t) fun ax => ?_
  match ax with
  | ⟨0, _⟩ =>
    show t.val = if n = 1 then 0 else t.val
    split
    · have := t.isLt; omega
    · rfl

/-- A vector of `n` entries laid along each of `m` rows, two spellings: the cast to one row broadcast down the rows,
    and the broadcast along axis 1 of a one-row matrix broadcast again down the rows. -/
theorem broadcastTo_row_eq_broadcastInDim_twice {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hbc (broadcastInDim ⟨2, ![1, n]⟩ ![1] hd x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply, broadcastInDim_a_1a_apply]

/-- A vector broadcast along the last axis of `[1, 1, n]` reads, at `(u, v, t)`, the vector at `t`. -/
theorem broadcastInDim_a_11a_apply {n : ℕ} (hd : (⟨1, ![n]⟩ : Shape).BroadcastsInDim ⟨3, ![1, 1, n]⟩ ![2])
    (x : (⟨1, ![n]⟩ : Shape).Idx → α) (u v : Fin 1) (t : Fin n) :
    broadcastInDim ⟨3, ![1, 1, n]⟩ ![2] hd x (ix3 u v t) = x (ix1 t) := by
  refine broadcastInDim_apply ![2] hd x (ix3 u v t) (ix1 t) fun ax => ?_
  match ax with
  | ⟨0, _⟩ =>
    show t.val = if n = 1 then 0 else t.val
    split
    · have := t.isLt; omega
    · rfl

/-- A `[1, 1, c]` array broadcast in place to `[a, b, c]` reads, at `(i, j, k)`, its one fibre at `k`. -/
theorem broadcastInDim_11c_abc_apply {a b c : ℕ} (h : (⟨3, ![1, 1, c]⟩ : Shape).BroadcastsInDim ⟨3, ![a, b, c]⟩ ![0, 1, 2])
    (y : (⟨3, ![1, 1, c]⟩ : Shape).Idx → α) (i : Fin a) (j : Fin b) (k : Fin c) :
    broadcastInDim ⟨3, ![a, b, c]⟩ ![0, 1, 2] h y (ix3 i j k) = y (ix3 (0 : Fin 1) (0 : Fin 1) k) := by
  refine broadcastInDim_apply ![0, 1, 2] h y (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b]` matrix broadcast along axes 0 and 1 of `[a, b, 1]` reads, at `(i, j, u)`, the matrix at `(i, j)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply ![0, 1] h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast in place to `[a, b, c]` reads, at `(i, j, k)`, the array at `(i, j, 0)`. -/
theorem broadcastInDim_ab1_abc_apply {a b c : ℕ} (h : (⟨3, ![a, b, 1]⟩ : Shape).BroadcastsInDim ⟨3, ![a, b, c]⟩ ![0, 1, 2])
    (y : (⟨3, ![a, b, 1]⟩ : Shape).Idx → α) (i : Fin a) (j : Fin b) (k : Fin c) :
    broadcastInDim ⟨3, ![a, b, c]⟩ ![0, 1, 2] h y (ix3 i j k) = y (ix3 i j (0 : Fin 1)) := by
  refine broadcastInDim_apply ![0, 1, 2] h y (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector laid along the last axis of a batch of matrices, the reference's two steps: at `(i, j, k)` it reads the
    vector at `k`. -/
theorem broadcastInDim_vec_abc_apply {a b c : ℕ} (hd : (⟨1, ![c]⟩ : Shape).BroadcastsInDim ⟨3, ![1, 1, c]⟩ ![2])
    (h : (⟨3, ![1, 1, c]⟩ : Shape).BroadcastsInDim ⟨3, ![a, b, c]⟩ ![0, 1, 2])
    (x : (⟨1, ![c]⟩ : Shape).Idx → α) (i : Fin a) (j : Fin b) (k : Fin c) :
    broadcastInDim ⟨3, ![a, b, c]⟩ ![0, 1, 2] h (broadcastInDim ⟨3, ![1, 1, c]⟩ ![2] hd x) (ix3 i j k) = x (ix1 k) := by
  rw [broadcastInDim_11c_abc_apply, broadcastInDim_a_11a_apply]

/-- A matrix repeated along a new last axis, the reference's two steps: at `(i, j, k)` it reads the matrix at `(i, j)`. -/
theorem broadcastInDim_mat_abc_apply {a b c : ℕ} (hd : (⟨2, ![a, b]⟩ : Shape).BroadcastsInDim ⟨3, ![a, b, 1]⟩ ![0, 1])
    (h : (⟨3, ![a, b, 1]⟩ : Shape).BroadcastsInDim ⟨3, ![a, b, c]⟩ ![0, 1, 2])
    (x : (⟨2, ![a, b]⟩ : Shape).Idx → α) (i : Fin a) (j : Fin b) (k : Fin c) :
    broadcastInDim ⟨3, ![a, b, c]⟩ ![0, 1, 2] h (broadcastInDim ⟨3, ![a, b, 1]⟩ ![0, 1] hd x) (ix3 i j k) = x (ix2 i j) := by
  rw [broadcastInDim_ab1_abc_apply, broadcastInDim_ab_ab1_apply]

/-! ## The transcendental operations at an index, at the ideal values

A kernel's vector operation and the host's operation of the same name are one function of the element. -/

section Pointwise
variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl
theorem sin_apply (a : FVec Ideal s φ) (i : s.Idx) : sin a i = Ideal.sin (a i) := rfl
theorem cos_apply (a : FVec Ideal s φ) (i : s.Idx) : cos a i = Ideal.cos (a i) := rfl
theorem hostExp_apply (a : FVec Ideal s φ) (i : s.Idx) : Host.exp a i = Ideal.exp (a i) := rfl
theorem hostSqrt_apply (a : FVec Ideal s φ) (i : s.Idx) : Host.sqrt a i = Ideal.sqrt (a i) := rfl
theorem hostSin_apply (a : FVec Ideal s φ) (i : s.Idx) : Host.sin a i = Ideal.sin (a i) := rfl
theorem hostCos_apply (a : FVec Ideal s φ) (i : s.Idx) : Host.cos a i = Ideal.cos (a i) := rfl
theorem hostNegf_apply (a : FVec Ideal s φ) (i : s.Idx) : Host.negf a i = -(a i) := rfl
theorem hostDivf_apply (a b : FVec Ideal s φ) (i : s.Idx) : Host.divf a b i = Ideal.div (a i) (b i) := rfl

end Pointwise

end Idealize.ShloMosaic.ValueIdx

namespace Idealize.ShloMosaic

/-- On extended reals a change of float format is the identity, so a product of operands narrowed to bf16 and accumulated
    into a zero splat is the host's contraction of the operands as they were. -/
theorem matmul_truncf_zero_eq_dotGeneral {sl sr so : Shape} (d : DotDims sl sr so) (prec : Option ContractPrecision)
    (lhs : FVec Ideal sl .f32) (rhs : FVec Ideal sr .f32) (hl : FTy.bf16.bits < FTy.f32.bits) (hr : FTy.bf16.bits < FTy.f32.bits) :
    matmul d prec (truncf .bf16 lhs hl) (truncf .bf16 rhs hr) (constant so .f32 0x00000000#32) = Host.dotGeneral d prec lhs rhs := by
  funext j
  show FloatOps.matmul d prec (truncf .bf16 lhs hl) (truncf .bf16 rhs hr) (constant so .f32 0x00000000#32) j
    = FloatOps.dotGeneral d prec _ lhs rhs j
  rw [Ideal.matmul_constant_zero_apply, Ideal.dotGeneral_apply]
  rfl

end Idealize.ShloMosaic
-- ==== Proof.Small.lean ====
/-
  The small kernel's six full-array results, as the reference's stages.

  Per channel `h` the kernel forms, on a one-row matrix, the decay `r = exp (0 - exp ν)`, the angle `θ' = exp θ`,
  `γ = √(1 - r·r)`, `A = r·cos θ'`, `B = r·sin θ'` and the derivative coefficients `(0 - A)·exp ν`, `(0 - B)·exp ν`,
  `r·r·exp ν / γ`, `(0 - B)·θ'`, `A·θ'`, and broadcasts each row down the 128 batch rows. The reference forms the same
  quantities on the length-512 vector, negating by `-x`, and broadcasts along axis 1 in two steps. A one-row cast is a
  re-indexing, so it commutes with every pointwise operation; `0 - x = -x` on the extended reals; and the row broadcast
  of the cast is the two-step broadcast of the vector. The projections `x·w₁`, `x·w₂`, which the kernel computes on bf16
  copies into a zero accumulator, are the host's contractions, a change of float format being the identity on extended
  reals. With these rewritings each stored value of the kernel is, term for term, the reference's stage for that result.
-/
import proofs.«122799_j53712861003855_1_alg».proof.Proof.Gen.KernelIdeal.Skeleton
import proofs.«122799_j53712861003855_1_alg».proof.Proof.Gen.ReferenceIdeal.Read
import proofs.«122799_j53712861003855_1_alg».proof.Proof.LibLayout

noncomputable section

namespace Cert.KernelIdeal.Small

open Cert.KernelIdeal Cert.KernelIdeal.Gen Idealize.ShloMosaic Idealize.ShloMosaic.ValueIdx
open Cert.ReferenceIdeal.Read

variable (x : Vec Ideal S128x256 .f32) (w1 w2 : Vec Ideal S256x512 .f32)
  (h1 h2 mn1 mn2 mt1 mt2 : Vec Ideal S128x512 .f32) (nu th : Vec Ideal S512 .f32)

/-- A length-512 vector of channel coefficients as a one-row matrix. -/
abbrev row (ρ : FVec Ideal S512 .f32) : FVec Ideal S1x512 .f32 := shapeCast S1x512 ρ Facts₀.shapeCasts_S512_S1x512

/-- The kernel's negation `0 - x` of a row is the row of the host's `-x`. -/
theorem neg_row (ρ : FVec Ideal S512 .f32) :
    subf (broadcast S1x512 (Scalar.ofBits (F := Ideal) .f32 0x00000000#32)) (row ρ) = row (Host.negf ρ) :=
  subf_zero_eq_hostNegf (row ρ)

/-- A row broadcast down the batch is the reference's two-step broadcast of the vector. -/
theorem bcast_row (ρ : FVec Ideal S512 .f32) :
    broadcastTo S128x512 (row ρ) Facts₀.broadcasts_S1x512_S128x512
      = broadcastInDim S128x512 ![0, 1] Cert.ReferenceIdeal.Facts₀.bcast_S1x512_S128x512_0_1
          (broadcastInDim S1x512 ![1] Cert.ReferenceIdeal.Facts₀.bcast_S512_S1x512_1 ρ) :=
  broadcastTo_row_eq_broadcastInDim_twice ρ _ _ _ _

/-! ## The per-channel rows -/

/-- `exp ν`. -/
theorem pay5 : k0_pay5 nu = row (val_main_v0 nu) := rfl
/-- `r = exp (-exp ν)`. -/
theorem pay6 : k0_pay6 nu = row (val_main_v2 nu) := by
  show exp (subf (broadcast S1x512 (Scalar.ofBits .f32 0x00000000#32)) (k0_pay5 nu)) = _
  rw [pay5, neg_row]; rfl
/-- `θ' = exp θ`. -/
theorem pay7 : k0_pay7 th = row (val_main_v3 th) := rfl
/-- `γ = √(1 - r·r)`. -/
theorem pay8 : k0_pay8 nu = row (val_main_v7 nu) := by
  show sqrt (subf (broadcast S1x512 (Scalar.ofBits .f32 0x3F800000#32)) (mulf (k0_pay6 nu) (k0_pay6 nu))) = _
  rw [pay6]; rfl
/-- `A = r·cos θ'`. -/
theorem pay9 : k0_pay9 nu th = row (val_main_v9 nu th) := by
  show mulf (k0_pay6 nu) (cos (k0_pay7 th)) = _
  rw [pay6, pay7]; rfl
/-- `B = r·sin θ'`. -/
theorem pay10 : k0_pay10 nu th = row (val_main_v11 nu th) := by
  show mulf (k0_pay6 nu) (sin (k0_pay7 th)) = _
  rw [pay6, pay7]; rfl

/-- `(0 - a)·e` on rows: the derivative coefficients `∂A/∂ν = (-A)·exp ν` and `∂B/∂ν = (-B)·exp ν`. -/
theorem pay18 (e a : FVec Ideal S512 .f32) : k0_pay18 (row e) (row a) = row (mulf (Host.negf a) e) := by
  show mulf (subf (broadcast S1x512 (Scalar.ofBits .f32 0x00000000#32)) (row a)) (row e) = _
  rw [neg_row]; rfl
theorem pay19 (e b : FVec Ideal S512 .f32) : k0_pay19 (row e) (row b) = row (mulf (Host.negf b) e) := by
  show mulf (subf (broadcast S1x512 (Scalar.ofBits .f32 0x00000000#32)) (row b)) (row e) = _
  rw [neg_row]; rfl
/-- `∂γ/∂ν = r·r·exp ν / γ` on rows. -/
theorem pay20 (e r g : FVec Ideal S512 .f32) : k0_pay20 (row e) (row r) (row g) = row (Host.divf (mulf (mulf r r) e) g) := rfl
/-- `∂A/∂θ = (-B)·θ'` on rows. -/
theorem pay21 (t b : FVec Ideal S512 .f32) : k0_pay21 (row t) (row b) = row (mulf (Host.negf b) t) := by
  show mulf (subf (broadcast S1x512 (Scalar.ofBits .f32 0x00000000#32)) (row b)) (row t) = _
  rw [neg_row]; rfl
/-- `∂B/∂θ = A·θ'` on rows. -/
theorem pay22 (t a : FVec Ideal S512 .f32) : k0_pay22 (row t) (row a) = row (mulf a t) := rfl

/-- The projection `x·w` on bf16 copies into a zero accumulator is the host's contraction. -/
theorem pay12 : k0_pay12 x w1 = val_main_v12 x w1 :=
  matmul_truncf_zero_eq_dotGeneral _ _ x w1 _ _
theorem pay13 : k0_pay13 x w2 = val_main_v13 x w2 :=
  matmul_truncf_zero_eq_dotGeneral _ _ x w2 _ _

/-! ## The six results -/

/-- `c₁ = A·h₁ - B·h₂ + γ·(x·w₁)`. -/
theorem c1_eq : k0_pay16 (k0_pay8 nu) (k0_pay12 x w1) (k0_pay14 nu th h1) (k0_pay15 nu th h2)
    = val_main_v24 x h1 h2 w1 nu th := by
  simp only [k0_pay16, k0_pay14, k0_pay15, pay8, pay9, pay10, pay12, bcast_row]
  rfl

/-- `c₂ = B·h₁ + A·h₂ + γ·(x·w₂)`. -/
theorem c2_eq : k0_pay17 (k0_pay8 nu) (k0_pay9 nu th) (k0_pay10 nu th) (k0_pay13 x w2) h1 h2
    = val_main_v35 x h1 h2 w2 nu th := by
  simp only [k0_pay17, pay8, pay9, pay10, pay13, bcast_row]
  rfl

/-- The trace of `c₁` with respect to `ν`. -/
theorem n1_eq : k0_pay23 (k0_pay5 nu) (k0_pay6 nu) (k0_pay8 nu) (k0_pay9 nu th) (k0_pay10 nu th) (k0_pay12 x w1) h1 h2 mn1 mn2
    = val_main_v64 x h1 h2 mn1 mn2 w1 nu th := by
  simp only [k0_pay23, pay5, pay6, pay8, pay9, pay10, pay12, pay18, pay19, pay20, bcast_row]
  rfl

/-- The trace of `c₂` with respect to `ν`. -/
theorem n2_eq : k0_pay24 (k0_pay5 nu) (k0_pay6 nu) (k0_pay8 nu) (k0_pay9 nu th) (k0_pay10 nu th) (k0_pay13 x w2) h1 h2 mn1 mn2
    = val_main_v83 x h1 h2 mn1 mn2 w2 nu th := by
  simp only [k0_pay24, pay5, pay6, pay8, pay9, pay10, pay13, pay18, pay19, pay20, bcast_row]
  rfl

/-- The trace of `c₁` with respect to `θ`. -/
theorem t1_eq : k0_pay1 h1 h2 (k0_pay21 (k0_pay7 th) (k0_pay10 nu th)) (k0_pay22 (k0_pay7 th) (k0_pay9 nu th))
      (k0_pay25 (k0_pay9 nu th) mt1) (k0_pay26 (k0_pay10 nu th) mt2)
    = val_main_v98 h1 h2 mt1 mt2 nu th := by
  simp only [k0_pay1, k0_pay25, k0_pay26, pay7, pay9, pay10, pay21, pay22, bcast_row]
  rfl

/-- The trace of `c₂` with respect to `θ`. -/
theorem t2_eq : k0_pay2 (k0_pay9 nu th) (k0_pay10 nu th) h1 h2 mt1 mt2 (k0_pay21 (k0_pay7 th) (k0_pay10 nu th))
      (k0_pay22 (k0_pay7 th) (k0_pay9 nu th))
    = val_main_v113 h1 h2 mt1 mt2 nu th := by
  simp only [k0_pay2, pay7, pay9, pay10, pay21, pay22, bcast_row]
  rfl

end Cert.KernelIdeal.Small

end
-- ==== Proof.Region0.lean ====
/-
  The small kernel's result arrays after its region.

  The region has one grid point, and at it every window's block is its whole array. So each input block the body loads is
  the argument array as the region finds it, the one point's write-back covers each result array, and the array ends
  holding what the body stored: the reference's stage for that result (Small.lean), as a function of the argument arrays.
  For the 128 × 1024 result the body stores two half-width pieces, columns 0–511 holding `max c₁ 0` and columns 512–1023
  holding `max c₂ 0`; the reference takes `max · 0` of the two arrays joined along the columns, which reads the same
  at either half.
-/
import proofs.«122799_j53712861003855_1_alg».proof.Proof.Gen.KernelIdeal.Frame
import proofs.«122799_j53712861003855_1_alg».proof.Proof.Small
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.Read

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-! ## Every window sits at block 0 on every axis -/

theorem idx0_0 : ∀ t : Fin cfg0.N, ∀ a : Fin 2, win0_0.index t a = 0 := (by decide +kernel : ∀ t : Fin grid0.N, ∀ a : Fin 2, _)
theorem idx0_1 : ∀ t : Fin cfg0.N, ∀ a : Fin 2, win0_1.index t a = 0 := (by decide +kernel : ∀ t : Fin grid0.N, ∀ a : Fin 2, _)
theorem idx0_2 : ∀ t : Fin cfg0.N, ∀ a : Fin 2, win0_2.index t a = 0 := (by decide +kernel : ∀ t : Fin grid0.N, ∀ a : Fin 2, _)
theorem idx0_3 : ∀ t : Fin cfg0.N, ∀ a : Fin 2, win0_3.index t a = 0 := (by decide +kernel : ∀ t : Fin grid0.N, ∀ a : Fin 2, _)
theorem idx0_4 : ∀ t : Fin cfg0.N, ∀ a : Fin 2, win0_4.index t a = 0 := (by decide +kernel : ∀ t : Fin grid0.N, ∀ a : Fin 2, _)
theorem idx0_5 : ∀ t : Fin cfg0.N, ∀ a : Fin 2, win0_5.index t a = 0 := (by decide +kernel : ∀ t : Fin grid0.N, ∀ a : Fin 2, _)
theorem idx0_6 : ∀ t : Fin cfg0.N, ∀ a : Fin 2, win0_6.index t a = 0 := (by decide +kernel : ∀ t : Fin grid0.N, ∀ a : Fin 2, _)
theorem idx0_7 : ∀ t : Fin cfg0.N, ∀ a : Fin 2, win0_7.index t a = 0 := (by decide +kernel : ∀ t : Fin grid0.N, ∀ a : Fin 2, _)
theorem idx0_8 : ∀ t : Fin cfg0.N, ∀ a : Fin 2, win0_8.index t a = 0 := (by decide +kernel : ∀ t : Fin grid0.N, ∀ a : Fin 2, _)
theorem idx0_9 : ∀ t : Fin cfg0.N, ∀ a : Fin 1, win0_9.index t a = 0 := (by decide +kernel : ∀ t : Fin grid0.N, ∀ a : Fin 1, _)
theorem idx0_10 : ∀ t : Fin cfg0.N, ∀ a : Fin 1, win0_10.index t a = 0 := (by decide +kernel : ∀ t : Fin grid0.N, ∀ a : Fin 1, _)
theorem idx0_11 : ∀ t : Fin cfg0.N, ∀ a : Fin 2, win0_11.index t a = 0 := (by decide +kernel : ∀ t : Fin grid0.N, ∀ a : Fin 2, _)
theorem idx0_12 : ∀ t : Fin cfg0.N, ∀ a : Fin 2, win0_12.index t a = 0 := (by decide +kernel : ∀ t : Fin grid0.N, ∀ a : Fin 2, _)
theorem idx0_13 : ∀ t : Fin cfg0.N, ∀ a : Fin 2, win0_13.index t a = 0 := (by decide +kernel : ∀ t : Fin grid0.N, ∀ a : Fin 2, _)
theorem idx0_14 : ∀ t : Fin cfg0.N, ∀ a : Fin 2, win0_14.index t a = 0 := (by decide +kernel : ∀ t : Fin grid0.N, ∀ a : Fin 2, _)
theorem idx0_15 : ∀ t : Fin cfg0.N, ∀ a : Fin 2, win0_15.index t a = 0 := (by decide +kernel : ∀ t : Fin grid0.N, ∀ a : Fin 2, _)
theorem idx0_16 : ∀ t : Fin cfg0.N, ∀ a : Fin 2, win0_16.index t a = 0 := (by decide +kernel : ∀ t : Fin grid0.N, ∀ a : Fin 2, _)
theorem idx0_17 : ∀ t : Fin cfg0.N, ∀ a : Fin 2, win0_17.index t a = 0 := (by decide +kernel : ∀ t : Fin grid0.N, ∀ a : Fin 2, _)

/-! ## An input block is its argument array -/

theorem blk_0 (c : Dev nD) (t : Fin cfg0.N) : iblk0 V c 0 t = V c main_arg0 := by
  unfold iblk0; funext y
  show V c main_arg0 (((cfg0.win 0).blk t).view.emb y) = V c main_arg0 y
  refine congrArg _ (funext fun a => Fin.ext ?_)
  match a with
  | ⟨0, _⟩ => show win0_0.index t (0 : Fin 2) * 128 + 1 * (y 0).val = (y 0).val; rw [idx0_0 t 0]; omega
  | ⟨1, _⟩ => show win0_0.index t (1 : Fin 2) * 256 + 1 * (y 1).val = (y 1).val; rw [idx0_0 t 1]; omega
theorem blk_1 (c : Dev nD) (t : Fin cfg0.N) : iblk0 V c 1 t = V c main_arg1 := by
  unfold iblk0; funext y
  show V c main_arg1 (((cfg0.win 1).blk t).view.emb y) = V c main_arg1 y
  refine congrArg _ (funext fun a => Fin.ext ?_)
  match a with
  | ⟨0, _⟩ => show win0_1.index t (0 : Fin 2) * 128 + 1 * (y 0).val = (y 0).val; rw [idx0_1 t 0]; omega
  | ⟨1, _⟩ => show win0_1.index t (1 : Fin 2) * 512 + 1 * (y 1).val = (y 1).val; rw [idx0_1 t 1]; omega
theorem blk_2 (c : Dev nD) (t : Fin cfg0.N) : iblk0 V c 2 t = V c main_arg2 := by
  unfold iblk0; funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; rw [idx0_2 t 0]; omega
  | ⟨1, _⟩ => show win0_2.index t (1 : Fin 2) * 512 + 1 * (y 1).val = (y 1).val; rw [idx0_2 t 1]; omega
theorem blk_3 (c : Dev nD) (t : Fin cfg0.N) : iblk0 V c 3 t = V c main_arg3 := by
  unfold iblk0; funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; rw [idx0_3 t 0]; omega
  | ⟨1, _⟩ => show win0_3.index t (1 : Fin 2) * 512 + 1 * (y 1).val = (y 1).val; rw [idx0_3 t 1]; omega
theorem blk_4 (c : Dev nD) (t : Fin cfg0.N) : iblk0 V c 4 t = V c main_arg4 := by
  unfold iblk0; funext y
  show V c main_arg4 (((cfg0.win 4).blk t).view.emb y) = V c main_arg4 y
  refine congrArg _ (funext fun a => Fin.ext ?_)
  match a with
  | ⟨0, _⟩ => show win0_4.index t (0 : Fin 2) * 128 + 1 * (y 0).val = (y 0).val; rw [idx0_4 t 0]; omega
  | ⟨1, _⟩ => show win0_4.index t (1 : Fin 2) * 512 + 1 * (y 1).val = (y 1).val; rw [idx0_4 t 1]; omega
theorem blk_5 (c : Dev nD) (t : Fin cfg0.N) : iblk0 V c 5 t = V c main_arg5 := by
  unfold iblk0; funext y
  show V c main_arg5 (((cfg0.win 5).blk t).view.emb y) = V c main_arg5 y
  refine congrArg _ (funext fun a => Fin.ext ?_)
  match a with
  | ⟨0, _⟩ => show win0_5.index t (0 : Fin 2) * 128 + 1 * (y 0).val = (y 0).val; rw [idx0_5 t 0]; omega
  | ⟨1, _⟩ => show win0_5.index t (1 : Fin 2) * 512 + 1 * (y 1).val = (y 1).val; rw [idx0_5 t 1]; omega
theorem blk_6 (c : Dev nD) (t : Fin cfg0.N) : iblk0 V c 6 t = V c main_arg6 := by
  unfold iblk0; funext y
  show V c main_arg6 (((cfg0.win 6).blk t).view.emb y) = V c main_arg6 y
  refine congrArg _ (funext fun a => Fin.ext ?_)
  match a with
  | ⟨0, _⟩ => show win0_6.index t (0 : Fin 2) * 128 + 1 * (y 0).val = (y 0).val; rw [idx0_6 t 0]; omega
  | ⟨1, _⟩ => show win0_6.index t (1 : Fin 2) * 512 + 1 * (y 1).val = (y 1).val; rw [idx0_6 t 1]; omega
theorem blk_7 (c : Dev nD) (t : Fin cfg0.N) : iblk0 V c 7 t = V c main_arg11 := by
  unfold iblk0; funext y
  show V c main_arg11 (((cfg0.win 7).blk t).view.emb y) = V c main_arg11 y
  refine congrArg _ (funext fun a => Fin.ext ?_)
  match a with
  | ⟨0, _⟩ => show win0_7.index t (0 : Fin 2) * 256 + 1 * (y 0).val = (y 0).val; rw [idx0_7 t 0]; omega
  | ⟨1, _⟩ => show win0_7.index t (1 : Fin 2) * 512 + 1 * (y 1).val = (y 1).val; rw [idx0_7 t 1]; omega
theorem blk_8 (c : Dev nD) (t : Fin cfg0.N) : iblk0 V c 8 t = V c main_arg12 := by
  unfold iblk0; funext y
  show V c main_arg12 (((cfg0.win 8).blk t).view.emb y) = V c main_arg12 y
  refine congrArg _ (funext fun a => Fin.ext ?_)
  match a with
  | ⟨0, _⟩ => show win0_8.index t (0 : Fin 2) * 256 + 1 * (y 0).val = (y 0).val; rw [idx0_8 t 0]; omega
  | ⟨1, _⟩ => show win0_8.index t (1 : Fin 2) * 512 + 1 * (y 1).val = (y 1).val; rw [idx0_8 t 1]; omega
theorem blk_9 (c : Dev nD) (t : Fin cfg0.N) : iblk0 V c 9 t = V c main_arg13 := by
  unfold iblk0; funext y
  show V c main_arg13 (((cfg0.win 9).blk t).view.emb y) = V c main_arg13 y
  refine congrArg _ (funext fun a => Fin.ext ?_)
  match a with
  | ⟨0, _⟩ => show win0_9.index t (0 : Fin 1) * 512 + 1 * (y 0).val = (y 0).val; rw [idx0_9 t 0]; omega
theorem blk_10 (c : Dev nD) (t : Fin cfg0.N) : iblk0 V c 10 t = V c main_arg14 := by
  unfold iblk0; funext y
  show V c main_arg14 (((cfg0.win 10).blk t).view.emb y) = V c main_arg14 y
  refine congrArg _ (funext fun a => Fin.ext ?_)
  match a with
  | ⟨0, _⟩ => show win0_10.index t (0 : Fin 1) * 512 + 1 * (y 0).val = (y 0).val; rw [idx0_10 t 0]; omega

/-! ## The six results stored whole -/

theorem read_12 (G : Vec Ideal S128x512 .f32) (t : Fin cfg0.N) : ((cfg0.win 12).blk t).view.read (Elt Ideal) G = G := by
  funext y
  show G (((cfg0.win 12).blk t).view.emb y) = G y
  refine congrArg _ (funext fun a => Fin.ext ?_)
  match a with
  | ⟨0, _⟩ => show win0_12.index t (0 : Fin 2) * 128 + 1 * (y 0).val = (y 0).val; rw [idx0_12 t 0]; omega
  | ⟨1, _⟩ => show win0_12.index t (1 : Fin 2) * 512 + 1 * (y 1).val = (y 1).val; rw [idx0_12 t 1]; omega

theorem cover_12 (i : S128x512.Idx) : ∃ t : Fin cfg0.N, (cfg0.win 12).flush t = true ∧ i ∈ ((cfg0.win 12).blk t).view.set := by
  have t0 : Fin cfg0.N := ⟨0, by decide⟩
  refine ⟨t0, flush0_12 t0, ?_⟩
  show i ∈ ((View.whole main_v0_1).slice (win0_12.rect t0)).set
  rw [View.set_slice_whole, Rect.mem_set_unit]
  intro a
  have hi0 : (i 0).val < 128 := (i 0).isLt
  have hi1 : (i 1).val < 512 := (i 1).isLt
  match a with
  | ⟨0, _⟩ => show win0_12.index t0 (0 : Fin 2) * 128 ≤ (i 0).val ∧ (i 0).val < win0_12.index t0 (0 : Fin 2) * 128 + 128; rw [idx0_12 t0 0]; omega
  | ⟨1, _⟩ => show win0_12.index t0 (1 : Fin 2) * 512 ≤ (i 1).val ∧ (i 1).val < win0_12.index t0 (1 : Fin 2) * 512 + 512; rw [idx0_12 t0 1]; omega

theorem flushed_12 (c : Dev nD) (t : Fin cfg0.N) :
    (dat0 V c).flushed 12 t = ((cfg0.win 12).blk t).view.read (Elt Ideal) (val_main_v24 (V c main_arg0) (V c main_arg1) (V c main_arg2) (V c main_arg11) (V c main_arg13) (V c main_arg14)) := by
  rw [read_12]
  show (cfg0.win 12).cut (grid0.coords t) ((dat0 V c).after 12 t) = _
  rw [after0_12]
  unfold out0_12
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.c1_eq ..

/-- The array after the region. -/
theorem arr_12 (c : Dev nD) : (dat0 V c).arrAt 12 cfg0.N = val_main_v24 (V c main_arg0) (V c main_arg1) (V c main_arg2) (V c main_arg11) (V c main_arg13) (V c main_arg14) :=
  (dat0 V c).arrAt_eq_of_cover 12 _ (fun t _ => flushed_12 V c t) cover_12

theorem read_13 (G : Vec Ideal S128x512 .f32) (t : Fin cfg0.N) : ((cfg0.win 13).blk t).view.read (Elt Ideal) G = G := by
  funext y
  show G (((cfg0.win 13).blk t).view.emb y) = G y
  refine congrArg _ (funext fun a => Fin.ext ?_)
  match a with
  | ⟨0, _⟩ => show win0_13.index t (0 : Fin 2) * 128 + 1 * (y 0).val = (y 0).val; rw [idx0_13 t 0]; omega
  | ⟨1, _⟩ => show win0_13.index t (1 : Fin 2) * 512 + 1 * (y 1).val = (y 1).val; rw [idx0_13 t 1]; omega

theorem cover_13 (i : S128x512.Idx) : ∃ t : Fin cfg0.N, (cfg0.win 13).flush t = true ∧ i ∈ ((cfg0.win 13).blk t).view.set := by
  have t0 : Fin cfg0.N := ⟨0, by decide⟩
  refine ⟨t0, flush0_13 t0, ?_⟩
  show i ∈ ((View.whole main_v0_2).slice (win0_13.rect t0)).set
  rw [View.set_slice_whole, Rect.mem_set_unit]
  intro a
  have hi0 : (i 0).val < 128 := (i 0).isLt
  have hi1 : (i 1).val < 512 := (i 1).isLt
  match a with
  | ⟨0, _⟩ => show win0_13.index t0 (0 : Fin 2) * 128 ≤ (i 0).val ∧ (i 0).val < win0_13.index t0 (0 : Fin 2) * 128 + 128; rw [idx0_13 t0 0]; omega
  | ⟨1, _⟩ => show win0_13.index t0 (1 : Fin 2) * 512 ≤ (i 1).val ∧ (i 1).val < win0_13.index t0 (1 : Fin 2) * 512 + 512; rw [idx0_13 t0 1]; omega

theorem flushed_13 (c : Dev nD) (t : Fin cfg0.N) :
    (dat0 V c).flushed 13 t = ((cfg0.win 13).blk t).view.read (Elt Ideal) (val_main_v35 (V c main_arg0) (V c main_arg1) (V c main_arg2) (V c main_arg12) (V c main_arg13) (V c main_arg14)) := by
  rw [read_13]
  show (cfg0.win 13).cut (grid0.coords t) ((dat0 V c).after 13 t) = _
  rw [after0_13]
  unfold out0_13
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.c2_eq ..

/-- The array after the region. -/
theorem arr_13 (c : Dev nD) : (dat0 V c).arrAt 13 cfg0.N = val_main_v35 (V c main_arg0) (V c main_arg1) (V c main_arg2) (V c main_arg12) (V c main_arg13) (V c main_arg14) :=
  (dat0 V c).arrAt_eq_of_cover 13 _ (fun t _ => flushed_13 V c t) cover_13

theorem read_14 (G : Vec Ideal S128x512 .f32) (t : Fin cfg0.N) : ((cfg0.win 14).blk t).view.read (Elt Ideal) G = G := by
  funext y
  show G (((cfg0.win 14).blk t).view.emb y) = G y
  refine congrArg _ (funext fun a => Fin.ext ?_)
  match a with
  | ⟨0, _⟩ => show win0_14.index t (0 : Fin 2) * 128 + 1 * (y 0).val = (y 0).val; rw [idx0_14 t 0]; omega
  | ⟨1, _⟩ => show win0_14.index t (1 : Fin 2) * 512 + 1 * (y 1).val = (y 1).val; rw [idx0_14 t 1]; omega

theorem cover_14 (i : S128x512.Idx) : ∃ t : Fin cfg0.N, (cfg0.win 14).flush t = true ∧ i ∈ ((cfg0.win 14).blk t).view.set := by
  have t0 : Fin cfg0.N := ⟨0, by decide⟩
  refine ⟨t0, flush0_14 t0, ?_⟩
  show i ∈ ((View.whole main_v0_3).slice (win0_14.rect t0)).set
  rw [View.set_slice_whole, Rect.mem_set_unit]
  intro a
  have hi0 : (i 0).val < 128 := (i 0).isLt
  have hi1 : (i 1).val < 512 := (i 1).isLt
  match a with
  | ⟨0, _⟩ => show win0_14.index t0 (0 : Fin 2) * 128 ≤ (i 0).val ∧ (i 0).val < win0_14.index t0 (0 : Fin 2) * 128 + 128; rw [idx0_14 t0 0]; omega
  | ⟨1, _⟩ => show win0_14.index t0 (1 : Fin 2) * 512 ≤ (i 1).val ∧ (i 1).val < win0_14.index t0 (1 : Fin 2) * 512 + 512; rw [idx0_14 t0 1]; omega

theorem flushed_14 (c : Dev nD) (t : Fin cfg0.N) :
    (dat0 V c).flushed 14 t = ((cfg0.win 14).blk t).view.read (Elt Ideal) (val_main_v64 (V c main_arg0) (V c main_arg1) (V c main_arg2) (V c main_arg3) (V c main_arg4) (V c main_arg11) (V c main_arg13) (V c main_arg14)) := by
  rw [read_14]
  show (cfg0.win 14).cut (grid0.coords t) ((dat0 V c).after 14 t) = _
  rw [after0_14]
  unfold out0_14
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.n1_eq ..

/-- The array after the region. -/
theorem arr_14 (c : Dev nD) : (dat0 V c).arrAt 14 cfg0.N = val_main_v64 (V c main_arg0) (V c main_arg1) (V c main_arg2) (V c main_arg3) (V c main_arg4) (V c main_arg11) (V c main_arg13) (V c main_arg14) :=
  (dat0 V c).arrAt_eq_of_cover 14 _ (fun t _ => flushed_14 V c t) cover_14

theorem read_15 (G : Vec Ideal S128x512 .f32) (t : Fin cfg0.N) : ((cfg0.win 15).blk t).view.read (Elt Ideal) G = G := by
  funext y
  show G (((cfg0.win 15).blk t).view.emb y) = G y
  refine congrArg _ (funext fun a => Fin.ext ?_)
  match a with
  | ⟨0, _⟩ => show win0_15.index t (0 : Fin 2) * 128 + 1 * (y 0).val = (y 0).val; rw [idx0_15 t 0]; omega
  | ⟨1, _⟩ => show win0_15.index t (1 : Fin 2) * 512 + 1 * (y 1).val = (y 1).val; rw [idx0_15 t 1]; omega

theorem cover_15 (i : S128x512.Idx) : ∃ t : Fin cfg0.N, (cfg0.win 15).flush t = true ∧ i ∈ ((cfg0.win 15).blk t).view.set := by
  have t0 : Fin cfg0.N := ⟨0, by decide⟩
  refine ⟨t0, flush0_15 t0, ?_⟩
  show i ∈ ((View.whole main_v0_4).slice (win0_15.rect t0)).set
  rw [View.set_slice_whole, Rect.mem_set_unit]
  intro a
  have hi0 : (i 0).val < 128 := (i 0).isLt
  have hi1 : (i 1).val < 512 := (i 1).isLt
  match a with
  | ⟨0, _⟩ => show win0_15.index t0 (0 : Fin 2) * 128 ≤ (i 0).val ∧ (i 0).val < win0_15.index t0 (0 : Fin 2) * 128 + 128; rw [idx0_15 t0 0]; omega
  | ⟨1, _⟩ => show win0_15.index t0 (1 : Fin 2) * 512 ≤ (i 1).val ∧ (i 1).val < win0_15.index t0 (1 : Fin 2) * 512 + 512; rw [idx0_15 t0 1]; omega

theorem flushed_15 (c : Dev nD) (t : Fin cfg0.N) :
    (dat0 V c).flushed 15 t = ((cfg0.win 15).blk t).view.read (Elt Ideal) (val_main_v83 (V c main_arg0) (V c main_arg1) (V c main_arg2) (V c main_arg3) (V c main_arg4) (V c main_arg12) (V c main_arg13) (V c main_arg14)) := by
  rw [read_15]
  show (cfg0.win 15).cut (grid0.coords t) ((dat0 V c).after 15 t) = _
  rw [after0_15]
  unfold out0_15
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.n2_eq ..

/-- The array after the region. -/
theorem arr_15 (c : Dev nD) : (dat0 V c).arrAt 15 cfg0.N = val_main_v83 (V c main_arg0) (V c main_arg1) (V c main_arg2) (V c main_arg3) (V c main_arg4) (V c main_arg12) (V c main_arg13) (V c main_arg14) :=
  (dat0 V c).arrAt_eq_of_cover 15 _ (fun t _ => flushed_15 V c t) cover_15

theorem read_16 (G : Vec Ideal S128x512 .f32) (t : Fin cfg0.N) : ((cfg0.win 16).blk t).view.read (Elt Ideal) G = G := by
  funext y
  show G (((cfg0.win 16).blk t).view.emb y) = G y
  refine congrArg _ (funext fun a => Fin.ext ?_)
  match a with
  | ⟨0, _⟩ => show win0_16.index t (0 : Fin 2) * 128 + 1 * (y 0).val = (y 0).val; rw [idx0_16 t 0]; omega
  | ⟨1, _⟩ => show win0_16.index t (1 : Fin 2) * 512 + 1 * (y 1).val = (y 1).val; rw [idx0_16 t 1]; omega

theorem cover_16 (i : S128x512.Idx) : ∃ t : Fin cfg0.N, (cfg0.win 16).flush t = true ∧ i ∈ ((cfg0.win 16).blk t).view.set := by
  have t0 : Fin cfg0.N := ⟨0, by decide⟩
  refine ⟨t0, flush0_16 t0, ?_⟩
  show i ∈ ((View.whole main_v0_5).slice (win0_16.rect t0)).set
  rw [View.set_slice_whole, Rect.mem_set_unit]
  intro a
  have hi0 : (i 0).val < 128 := (i 0).isLt
  have hi1 : (i 1).val < 512 := (i 1).isLt
  match a with
  | ⟨0, _⟩ => show win0_16.index t0 (0 : Fin 2) * 128 ≤ (i 0).val ∧ (i 0).val < win0_16.index t0 (0 : Fin 2) * 128 + 128; rw [idx0_16 t0 0]; omega
  | ⟨1, _⟩ => show win0_16.index t0 (1 : Fin 2) * 512 ≤ (i 1).val ∧ (i 1).val < win0_16.index t0 (1 : Fin 2) * 512 + 512; rw [idx0_16 t0 1]; omega

theorem flushed_16 (c : Dev nD) (t : Fin cfg0.N) :
    (dat0 V c).flushed 16 t = ((cfg0.win 16).blk t).view.read (Elt Ideal) (val_main_v98 (V c main_arg1) (V c main_arg2) (V c main_arg5) (V c main_arg6) (V c main_arg13) (V c main_arg14)) := by
  rw [read_16]
  show (cfg0.win 16).cut (grid0.coords t) ((dat0 V c).after 16 t) = _
  rw [after0_16]
  unfold out0_16
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.t1_eq ..

/-- The array after the region. -/
theorem arr_16 (c : Dev nD) : (dat0 V c).arrAt 16 cfg0.N = val_main_v98 (V c main_arg1) (V c main_arg2) (V c main_arg5) (V c main_arg6) (V c main_arg13) (V c main_arg14) :=
  (dat0 V c).arrAt_eq_of_cover 16 _ (fun t _ => flushed_16 V c t) cover_16

theorem read_17 (G : Vec Ideal S128x512 .f32) (t : Fin cfg0.N) : ((cfg0.win 17).blk t).view.read (Elt Ideal) G = G := by
  funext y
  show G (((cfg0.win 17).blk t).view.emb y) = G y
  refine congrArg _ (funext fun a => Fin.ext ?_)
  match a with
  | ⟨0, _⟩ => show win0_17.index t (0 : Fin 2) * 128 + 1 * (y 0).val = (y 0).val; rw [idx0_17 t 0]; omega
  | ⟨1, _⟩ => show win0_17.index t (1 : Fin 2) * 512 + 1 * (y 1).val = (y 1).val; rw [idx0_17 t 1]; omega

theorem cover_17 (i : S128x512.Idx) : ∃ t : Fin cfg0.N, (cfg0.win 17).flush t = true ∧ i ∈ ((cfg0.win 17).blk t).view.set := by
  have t0 : Fin cfg0.N := ⟨0, by decide⟩
  refine ⟨t0, flush0_17 t0, ?_⟩
  show i ∈ ((View.whole main_v0_6).slice (win0_17.rect t0)).set
  rw [View.set_slice_whole, Rect.mem_set_unit]
  intro a
  have hi0 : (i 0).val < 128 := (i 0).isLt
  have hi1 : (i 1).val < 512 := (i 1).isLt
  match a with
  | ⟨0, _⟩ => show win0_17.index t0 (0 : Fin 2) * 128 ≤ (i 0).val ∧ (i 0).val < win0_17.index t0 (0 : Fin 2) * 128 + 128; rw [idx0_17 t0 0]; omega
  | ⟨1, _⟩ => show win0_17.index t0 (1 : Fin 2) * 512 ≤ (i 1).val ∧ (i 1).val < win0_17.index t0 (1 : Fin 2) * 512 + 512; rw [idx0_17 t0 1]; omega

theorem flushed_17 (c : Dev nD) (t : Fin cfg0.N) :
    (dat0 V c).flushed 17 t = ((cfg0.win 17).blk t).view.read (Elt Ideal) (val_main_v113 (V c main_arg1) (V c main_arg2) (V c main_arg5) (V c main_arg6) (V c main_arg13) (V c main_arg14)) := by
  rw [read_17]
  show (cfg0.win 17).cut (grid0.coords t) ((dat0 V c).after 17 t) = _
  rw [after0_17]
  unfold out0_17
  rw [View.canon_unit_zero hz2]
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  exact Small.t2_eq ..

/-- The array after the region. -/
theorem arr_17 (c : Dev nD) : (dat0 V c).arrAt 17 cfg0.N = val_main_v113 (V c main_arg1) (V c main_arg2) (V c main_arg5) (V c main_arg6) (V c main_arg13) (V c main_arg14) :=
  (dat0 V c).arrAt_eq_of_cover 17 _ (fun t _ => flushed_17 V c t) cover_17

/-! ## The result stored in two halves -/

/-- Two half-width stores of `max c₁ 0` and `max c₂ 0` leave `max · 0` of the two arrays joined along the columns. -/
theorem halves_eq (x : Vec Ideal S128x256 .f32) (w1 w2 : Vec Ideal S256x512 .f32) (h1 h2 : Vec Ideal S128x512 .f32) (nu th : Vec Ideal S512 .f32) :
    View.canon [⟨r0_5, k0_pay4 (val_main_v35 x h1 h2 w2 nu th)⟩, ⟨r0_4, k0_pay3 (val_main_v24 x h1 h2 w1 nu th)⟩]
      = val_main_v150 x h1 h2 w1 w2 nu th := by
  funext y
  refine View.canon_apply_of_pieces (val_main_v150 x h1 h2 w1 w2 nu th) _ ?_ y (cover0_11 _ _ y)
  intro p hp z
  simp only [List.mem_cons, List.not_mem_nil, or_false] at hp
  rcases hp with rfl | rfl
  · show max (val_main_v35 x h1 h2 w2 nu th z) (Ideal.ofBits .f32 0x00000000#32)
      = max (val_main_v149 x h1 h2 w1 w2 nu th (r0_5.emb z)) (Ideal.ofBits .f32 0x00000000#32)
    refine congrArg (fun v => max v _) ?_
    unfold val_main_v149
    refine (concatenate_pair_apply_right (t := S128x1024) (s₁ := S128x512) (s₂ := S128x512) 1 (val_main_v24 x h1 h2 w1 nu th) (val_main_v35 x h1 h2 w2 nu th) _ (r0_5.emb z) rfl rfl z ?_ ?_).symm
    · intro ax hax
      match ax, hax with
      | ⟨0, _⟩, _ => show (z 0).val = 0 + 1 * (z 0).val; omega
      | ⟨1, _⟩, h => exact absurd rfl h
    · show (z 1).val + 512 = 512 + 1 * (z 1).val; omega
  · show max (val_main_v24 x h1 h2 w1 nu th z) (Ideal.ofBits .f32 0x00000000#32)
      = max (val_main_v149 x h1 h2 w1 w2 nu th (r0_4.emb z)) (Ideal.ofBits .f32 0x00000000#32)
    refine congrArg (fun v => max v _) ?_
    unfold val_main_v149
    refine (concatenate_pair_apply_left (t := S128x1024) (s₁ := S128x512) (s₂ := S128x512) 1 (val_main_v24 x h1 h2 w1 nu th) (val_main_v35 x h1 h2 w2 nu th) _ (r0_4.emb z) rfl z ?_).symm
    intro ax
    match ax with
    | ⟨0, _⟩ => show (z 0).val = 0 + 1 * (z 0).val; omega
    | ⟨1, _⟩ => show (z 1).val = 0 + 1 * (z 1).val; omega

theorem read_11 (G : Vec Ideal S128x1024 .f32) (t : Fin cfg0.N) : ((cfg0.win 11).blk t).view.read (Elt Ideal) G = G := by
  funext y
  show G (((cfg0.win 11).blk t).view.emb y) = G y
  refine congrArg _ (funext fun a => Fin.ext ?_)
  match a with
  | ⟨0, _⟩ => show win0_11.index t (0 : Fin 2) * 128 + 1 * (y 0).val = (y 0).val; rw [idx0_11 t 0]; omega
  | ⟨1, _⟩ => show win0_11.index t (1 : Fin 2) * 1024 + 1 * (y 1).val = (y 1).val; rw [idx0_11 t 1]; omega

theorem cover_11 (i : S128x1024.Idx) : ∃ t : Fin cfg0.N, (cfg0.win 11).flush t = true ∧ i ∈ ((cfg0.win 11).blk t).view.set := by
  have t0 : Fin cfg0.N := ⟨0, by decide⟩
  refine ⟨t0, flush0_11 t0, ?_⟩
  show i ∈ ((View.whole main_v0_0).slice (win0_11.rect t0)).set
  rw [View.set_slice_whole, Rect.mem_set_unit]
  intro a
  have hi0 : (i 0).val < 128 := (i 0).isLt
  have hi1 : (i 1).val < 1024 := (i 1).isLt
  match a with
  | ⟨0, _⟩ => show win0_11.index t0 (0 : Fin 2) * 128 ≤ (i 0).val ∧ (i 0).val < win0_11.index t0 (0 : Fin 2) * 128 + 128; rw [idx0_11 t0 0]; omega
  | ⟨1, _⟩ => show win0_11.index t0 (1 : Fin 2) * 1024 ≤ (i 1).val ∧ (i 1).val < win0_11.index t0 (1 : Fin 2) * 1024 + 1024; rw [idx0_11 t0 1]; omega

theorem flushed_11 (c : Dev nD) (t : Fin cfg0.N) :
    (dat0 V c).flushed 11 t = ((cfg0.win 11).blk t).view.read (Elt Ideal) (val_main_v150 (V c main_arg0) (V c main_arg1) (V c main_arg2) (V c main_arg11) (V c main_arg12) (V c main_arg13) (V c main_arg14)) := by
  rw [read_11]
  show (cfg0.win 11).cut (grid0.coords t) ((dat0 V c).after 11 t) = _
  rw [after0_11]
  unfold out0_11
  simp only [View.ld_unit_zero (S := S512) hz1, View.ld_unit_zero (S := S128x256) hz2, View.ld_unit_zero (S := S256x512) hz2, View.ld_unit_zero (S := S128x512) hz2]
  simp only [blk_0 V c t, blk_1 V c t, blk_2 V c t, blk_3 V c t, blk_4 V c t, blk_5 V c t, blk_6 V c t, blk_7 V c t, blk_8 V c t, blk_9 V c t, blk_10 V c t]
  rw [Small.c1_eq, Small.c2_eq]
  exact halves_eq ..

/-- The array after the region. -/
theorem arr_11 (c : Dev nD) : (dat0 V c).arrAt 11 cfg0.N = val_main_v150 (V c main_arg0) (V c main_arg1) (V c main_arg2) (V c main_arg11) (V c main_arg12) (V c main_arg13) (V c main_arg14) :=
  (dat0 V c).arrAt_eq_of_cover 11 _ (fun t _ => flushed_11 V c t) cover_11

end Cert.KernelIdeal.Region0

end
-- ==== Proof.Coeffs.lean ====
/-
  The per-channel coefficients of the recurrence, as functions of one channel's two parameters.

  For a channel with parameters `ν` and `θ` the recurrence rotates by the angle `exp θ` and contracts by
  `r = exp (-exp ν)`; the input enters with the gain `γ = √(1 - r²)`. Both kernels and the reference form
  `A = r·cos (exp θ)`, `B = r·sin (exp θ)` and `γ` from the channel's parameters alone, so a block of channels sees the
  same coefficients as the whole vector does at those channels.
-/
import Idealize.ShloMosaic.PureOps.Ideal

noncomputable section

namespace Cert.Coeffs

open Idealize.ShloMosaic

/-- The contraction `r = exp (-exp ν)`. -/
def decay (ν : EReal) : EReal := Ideal.exp (-(Ideal.exp ν))
/-- The rotation angle `exp θ`. -/
def angle (θ : EReal) : EReal := Ideal.exp θ
/-- The input gain `γ = √(1 - r·r)`; the literal is the f32 word of `1`. -/
def gain (ν : EReal) : EReal := Ideal.sqrt (Ideal.ofBits .f32 0x3F800000#32 - decay ν * decay ν)
/-- `A = r·cos (exp θ)`. -/
def cosCoef (ν θ : EReal) : EReal := decay ν * Ideal.cos (angle θ)
/-- `B = r·sin (exp θ)`. -/
def sinCoef (ν θ : EReal) : EReal := decay ν * Ideal.sin (angle θ)

end Cert.Coeffs

end
-- ==== Proof.BigKernel.lean ====
/-
  The tiled kernel's four stored blocks, element by element.

  At a grid point the kernel holds a block of 128 channels of `ν` and `θ`, the block's 8 batch rows of the input
  (8 × 256), and the matching 8 × 256 × 128 blocks of the four weight traces. It casts the channel vectors to
  1 × 1 × 128, forms `r`, `γ`, `A`, `B` there (negating by `0 - x`), casts the input rows to 8 × 256 × 1, and broadcasts
  both to the block's shape. Read at `(a, b, k)` each stored value is therefore a combination of the traces at
  `(a, b, k)` with the coefficients of channel `k` of the block, plus, for two of them, `γ` of that channel times the
  input at `(a, b)`.
-/
import proofs.«122799_j53712861003855_1_alg».proof.Proof.Gen.KernelIdeal.Skeleton
import proofs.«122799_j53712861003855_1_alg».proof.Proof.LibLayout
import proofs.«122799_j53712861003855_1_alg».proof.Proof.Coeffs

noncomputable section

namespace Cert.KernelIdeal.Big

open Cert.KernelIdeal Cert.KernelIdeal.Gen Cert.KernelIdeal.Facts₀ Idealize.ShloMosaic Idealize.ShloMosaic.ValueIdx
open Cert.Coeffs

variable (nuB thB : Vec Ideal S128 .f32) (xB : Vec Ideal S8x256 .f32) (P Q : Vec Ideal S8x256x128 .f32)

/-- The contraction of the block's channel `k`. -/
theorem ker_decay (u v : Fin 1) (k : Fin 128) : k1_pay4 nuB (ix3 u v k) = decay (nuB (ix1 k)) := by
  unfold k1_pay4
  simp only [exp_apply, subf_apply, broadcast_apply, shapeCast_a_11a_apply]
  show Ideal.exp (Ideal.ofBits .f32 0x00000000#32 - Ideal.exp (nuB (ix1 k))) = _
  rw [Ideal.ofBits_zero_f32, zero_sub]; rfl

/-- The angle of the block's channel `k`. -/
theorem ker_angle (u v : Fin 1) (k : Fin 128) : k1_pay5 thB (ix3 u v k) = angle (thB (ix1 k)) := by
  unfold k1_pay5
  simp only [exp_apply, shapeCast_a_11a_apply]
  rfl

/-- `A` of the block's channel `k`. -/
theorem ker_cos (u v : Fin 1) (k : Fin 128) : k1_pay6 nuB thB (ix3 u v k) = cosCoef (nuB (ix1 k)) (thB (ix1 k)) := by
  unfold k1_pay6
  simp only [mulf_apply, cos_apply, ker_decay, ker_angle]
  rfl

/-- `B` of the block's channel `k`. -/
theorem ker_sin (u v : Fin 1) (k : Fin 128) : k1_pay7 nuB thB (ix3 u v k) = sinCoef (nuB (ix1 k)) (thB (ix1 k)) := by
  unfold k1_pay7
  simp only [mulf_apply, sin_apply, ker_decay, ker_angle]
  rfl

/-- The direct term `γ·x`: the gain of channel `k` times the input at `(a, b)`. -/
theorem ker_gx (a : Fin 8) (b : Fin 256) (k : Fin 128) :
    k1_pay8 nuB xB (ix3 a b k) = gain (nuB (ix1 k)) * xB (ix2 a b) := by
  unfold k1_pay8
  simp only [mulf_apply, subf_apply, sqrt_apply, broadcast_apply, broadcastTo_11c_abc_apply, broadcastTo_ab1_abc_apply,
    shapeCast_ab_ab1_apply, ker_decay]
  rfl

/-- `W₁₁ = A·m₁₁ - B·m₁₂ + γ·x`. -/
theorem ker_w11 (a : Fin 8) (b : Fin 256) (k : Fin 128) :
    k1_pay9 nuB thB xB P Q (ix3 a b k)
      = cosCoef (nuB (ix1 k)) (thB (ix1 k)) * P (ix3 a b k) - sinCoef (nuB (ix1 k)) (thB (ix1 k)) * Q (ix3 a b k)
        + gain (nuB (ix1 k)) * xB (ix2 a b) := by
  unfold k1_pay9
  simp only [addf_apply, subf_apply, mulf_apply, broadcastTo_11c_abc_apply, ker_cos, ker_sin, ker_gx]

/-- `W₁₂ = B·m₁₁ + A·m₁₂`. -/
theorem ker_w12 (a : Fin 8) (b : Fin 256) (k : Fin 128) :
    k1_pay1 Q (k1_pay10 nuB thB P) (k1_pay11 nuB thB) (ix3 a b k)
      = sinCoef (nuB (ix1 k)) (thB (ix1 k)) * P (ix3 a b k) + cosCoef (nuB (ix1 k)) (thB (ix1 k)) * Q (ix3 a b k) := by
  unfold k1_pay1 k1_pay10 k1_pay11
  simp only [addf_apply, mulf_apply, broadcastTo_11c_abc_apply, ker_cos, ker_sin]

/-- `W₂₁ = A·m₂₁ - B·m₂₂`. -/
theorem ker_w21 (a : Fin 8) (b : Fin 256) (k : Fin 128) :
    k1_pay2 (k1_pay6 nuB thB) (k1_pay7 nuB thB) P Q (ix3 a b k)
      = cosCoef (nuB (ix1 k)) (thB (ix1 k)) * P (ix3 a b k) - sinCoef (nuB (ix1 k)) (thB (ix1 k)) * Q (ix3 a b k) := by
  unfold k1_pay2
  simp only [subf_apply, mulf_apply, broadcastTo_11c_abc_apply, ker_cos, ker_sin]

/-- `W₂₂ = B·m₂₁ + A·m₂₂ + γ·x`. -/
theorem ker_w22 (a : Fin 8) (b : Fin 256) (k : Fin 128) :
    k1_pay3 (k1_pay6 nuB thB) (k1_pay7 nuB thB) (k1_pay8 nuB xB) P Q (ix3 a b k)
      = sinCoef (nuB (ix1 k)) (thB (ix1 k)) * P (ix3 a b k) + cosCoef (nuB (ix1 k)) (thB (ix1 k)) * Q (ix3 a b k)
        + gain (nuB (ix1 k)) * xB (ix2 a b) := by
  unfold k1_pay3
  simp only [addf_apply, mulf_apply, broadcastTo_11c_abc_apply, ker_cos, ker_sin, ker_gx]

end Cert.KernelIdeal.Big

end
-- ==== Proof.BigRef.lean ====
/-
  The reference's four weight traces, element by element.

  The reference forms `γ`, `A`, `B` on the whole length-512 vectors, lays each along the last axis of the
  128 × 256 × 512 traces (a broadcast in two steps), and repeats the input along a new last axis. Read at `(p, b, q)`
  each result is the same combination as in the tiled kernel, with the coefficients of channel `q` and the input at
  `(p, b)`.
-/
import proofs.«122799_j53712861003855_1_alg».proof.Proof.Gen.ReferenceIdeal.Read
import proofs.«122799_j53712861003855_1_alg».proof.Proof.LibLayout
import proofs.«122799_j53712861003855_1_alg».proof.Proof.Coeffs

noncomputable section

namespace Cert.ReferenceIdeal.Traces

open Cert.ReferenceIdeal Cert.ReferenceIdeal.Read Idealize.ShloMosaic Idealize.ShloMosaic.ValueIdx
open Cert.Coeffs

variable (X : Vec Ideal S128x256 .f32) (A B : Vec Ideal S128x256x512 .f32) (NU TH : Vec Ideal S512 .f32)

/-- The gain of channel `i`. -/
theorem ref_gain (i : S512.Idx) : val_main_v7 NU i = gain (NU i) := rfl
/-- `A` of channel `i`. -/
theorem ref_cos (i : S512.Idx) : val_main_v9 NU TH i = cosCoef (NU i) (TH i) := rfl
/-- `B` of channel `i`. -/
theorem ref_sin (i : S512.Idx) : val_main_v11 NU TH i = sinCoef (NU i) (TH i) := rfl

/-- A channel vector laid along the last axis of the traces reads, at `(p, b, q)`, the vector at `q`. -/
theorem lay3 (ρ : Vec Ideal S512 .f32) (p : Fin 128) (b : Fin 256) (q : Fin 512) :
    broadcastInDim S128x256x512 ![0, 1, 2] Facts₀.bcast_S1x1x512_S128x256x512_0_1_2
      (broadcastInDim S1x1x512 ![2] Facts₀.bcast_S512_S1x1x512_2 ρ) (ix3 p b q) = ρ (ix1 q) :=
  broadcastInDim_vec_abc_apply _ _ ρ p b q

/-- The input repeated along the channels reads, at `(p, b, q)`, the input at `(p, b)`. -/
theorem rep3 (Y : Vec Ideal S128x256 .f32) (p : Fin 128) (b : Fin 256) (q : Fin 512) :
    broadcastInDim S128x256x512 ![0, 1, 2] Facts₀.bcast_S128x256x1_S128x256x512_0_1_2
      (broadcastInDim S128x256x1 ![0, 1] Facts₀.bcast_S128x256_S128x256x1_0_1 Y) (ix3 p b q) = Y (ix2 p b) :=
  broadcastInDim_mat_abc_apply _ _ Y p b q

/-- The direct term `γ·x` at `(p, b, q)`. -/
theorem ref_gx (p : Fin 128) (b : Fin 256) (q : Fin 512) :
    val_main_v118 X NU (ix3 p b q) = gain (NU (ix1 q)) * X (ix2 p b) := by
  have e116 : val_main_v116 NU (ix3 p b q) = gain (NU (ix1 q)) := (lay3 (val_main_v7 NU) p b q).trans (ref_gain NU _)
  have e117 : val_main_v117 X (ix3 p b q) = X (ix2 p b) := rep3 X p b q
  show val_main_v116 NU (ix3 p b q) * val_main_v117 X (ix3 p b q) = _
  rw [e116, e117]

/-- `W₁₁ = A·m₁₁ - B·m₁₂ + γ·x`. -/
theorem ref_w11 (p : Fin 128) (b : Fin 256) (q : Fin 512) :
    val_main_v126 X A B NU TH (ix3 p b q)
      = cosCoef (NU (ix1 q)) (TH (ix1 q)) * A (ix3 p b q) - sinCoef (NU (ix1 q)) (TH (ix1 q)) * B (ix3 p b q)
        + gain (NU (ix1 q)) * X (ix2 p b) := by
  have e120 : val_main_v120 NU TH (ix3 p b q) = cosCoef (NU (ix1 q)) (TH (ix1 q)) :=
    (lay3 (val_main_v9 NU TH) p b q).trans (ref_cos NU TH _)
  have e123 : val_main_v123 NU TH (ix3 p b q) = sinCoef (NU (ix1 q)) (TH (ix1 q)) :=
    (lay3 (val_main_v11 NU TH) p b q).trans (ref_sin NU TH _)
  show val_main_v120 NU TH (ix3 p b q) * A (ix3 p b q) - val_main_v123 NU TH (ix3 p b q) * B (ix3 p b q) + val_main_v118 X NU (ix3 p b q) = _
  rw [e120, e123, ref_gx]

/-- `W₁₂ = B·m₁₁ + A·m₁₂`. -/
theorem ref_w12 (p : Fin 128) (b : Fin 256) (q : Fin 512) :
    val_main_v133 A B NU TH (ix3 p b q)
      = sinCoef (NU (ix1 q)) (TH (ix1 q)) * A (ix3 p b q) + cosCoef (NU (ix1 q)) (TH (ix1 q)) * B (ix3 p b q) := by
  have e128 : val_main_v128 NU TH (ix3 p b q) = sinCoef (NU (ix1 q)) (TH (ix1 q)) :=
    (lay3 (val_main_v11 NU TH) p b q).trans (ref_sin NU TH _)
  have e131 : val_main_v131 NU TH (ix3 p b q) = cosCoef (NU (ix1 q)) (TH (ix1 q)) :=
    (lay3 (val_main_v9 NU TH) p b q).trans (ref_cos NU TH _)
  show val_main_v128 NU TH (ix3 p b q) * A (ix3 p b q) + val_main_v131 NU TH (ix3 p b q) * B (ix3 p b q) = _
  rw [e128, e131]

/-- `W₂₁ = A·m₂₁ - B·m₂₂`. -/
theorem ref_w21 (p : Fin 128) (b : Fin 256) (q : Fin 512) :
    val_main_v140 A B NU TH (ix3 p b q)
      = cosCoef (NU (ix1 q)) (TH (ix1 q)) * A (ix3 p b q) - sinCoef (NU (ix1 q)) (TH (ix1 q)) * B (ix3 p b q) := by
  have e135 : val_main_v135 NU TH (ix3 p b q) = cosCoef (NU (ix1 q)) (TH (ix1 q)) :=
    (lay3 (val_main_v9 NU TH) p b q).trans (ref_cos NU TH _)
  have e138 : val_main_v138 NU TH (ix3 p b q) = sinCoef (NU (ix1 q)) (TH (ix1 q)) :=
    (lay3 (val_main_v11 NU TH) p b q).trans (ref_sin NU TH _)
  show val_main_v135 NU TH (ix3 p b q) * A (ix3 p b q) - val_main_v138 NU TH (ix3 p b q) * B (ix3 p b q) = _
  rw [e135, e138]

/-- `W₂₂ = B·m₂₁ + A·m₂₂ + γ·x`. -/
theorem ref_w22 (p : Fin 128) (b : Fin 256) (q : Fin 512) :
    val_main_v148 X A B NU TH (ix3 p b q)
      = sinCoef (NU (ix1 q)) (TH (ix1 q)) * A (ix3 p b q) + cosCoef (NU (ix1 q)) (TH (ix1 q)) * B (ix3 p b q)
        + gain (NU (ix1 q)) * X (ix2 p b) := by
  have e142 : val_main_v142 NU TH (ix3 p b q) = sinCoef (NU (ix1 q)) (TH (ix1 q)) :=
    (lay3 (val_main_v11 NU TH) p b q).trans (ref_sin NU TH _)
  have e145 : val_main_v145 NU TH (ix3 p b q) = cosCoef (NU (ix1 q)) (TH (ix1 q)) :=
    (lay3 (val_main_v9 NU TH) p b q).trans (ref_cos NU TH _)
  show val_main_v142 NU TH (ix3 p b q) * A (ix3 p b q) + val_main_v145 NU TH (ix3 p b q) * B (ix3 p b q) + val_main_v118 X NU (ix3 p b q) = _
  rw [e142, e145, ref_gx]

end Cert.ReferenceIdeal.Traces

end
-- ==== Proof.Region1.lean ====
/-
  The tiled kernel's four result arrays after its region.

  The region runs over a 16 × 4 grid. At point `(i, j)` the result block is rows `8i … 8i+7`, all 256 input
  coordinates and channels `128j … 128j+127` of the 128 × 256 × 512 array; the four trace inputs are blocked the same
  way, the input rows by `i` and the channel vectors by `j`. So element `(a, b, k)` of what a point writes back is
  computed from the traces at `(8i+a, b, 128j+k)`, the input at `(8i+a, b)` and the parameters of channel `128j+k`,
  by the same formula the reference applies at that index of the array. The 64 blocks tile the array, so after the
  region each result array is the reference's stage of the argument arrays as the region finds them.
-/
import proofs.«122799_j53712861003855_1_alg».proof.Proof.Gen.KernelIdeal.Frame
import proofs.«122799_j53712861003855_1_alg».proof.Proof.BigKernel
import proofs.«122799_j53712861003855_1_alg».proof.Proof.BigRef
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.ReferenceIdeal.Read

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the 16 × 4 grid

At point `(i, j)` every trace window, input or result, is at block `(i, 0, j)`, the input rows at block `(i, 0)`, and
the two channel vectors at block `j`. -/

theorem idx_tr : ∀ t : Fin cfg1.N,
    (win1_0.index t (0 : Fin 3) = win1_7.index t (0 : Fin 3) ∧ win1_0.index t (1 : Fin 3) = 0 ∧ win1_0.index t (2 : Fin 3) = win1_7.index t (2 : Fin 3))
    ∧ (win1_1.index t (0 : Fin 3) = win1_7.index t (0 : Fin 3) ∧ win1_1.index t (1 : Fin 3) = 0 ∧ win1_1.index t (2 : Fin 3) = win1_7.index t (2 : Fin 3))
    ∧ (win1_2.index t (0 : Fin 3) = win1_7.index t (0 : Fin 3) ∧ win1_2.index t (1 : Fin 3) = 0 ∧ win1_2.index t (2 : Fin 3) = win1_7.index t (2 : Fin 3))
    ∧ (win1_3.index t (0 : Fin 3) = win1_7.index t (0 : Fin 3) ∧ win1_3.index t (1 : Fin 3) = 0 ∧ win1_3.index t (2 : Fin 3) = win1_7.index t (2 : Fin 3)) :=
  (by decide +kernel : ∀ t : Fin grid1.N, _)

theorem idx_in : ∀ t : Fin cfg1.N,
    win1_4.index t (0 : Fin 2) = win1_7.index t (0 : Fin 3) ∧ win1_4.index t (1 : Fin 2) = 0
    ∧ win1_5.index t (0 : Fin 1) = win1_7.index t (2 : Fin 3)
    ∧ win1_6.index t (0 : Fin 1) = win1_7.index t (2 : Fin 3) :=
  (by decide +kernel : ∀ t : Fin grid1.N, _)

theorem idx_out : ∀ t : Fin cfg1.N,
    (win1_7.index t (0 : Fin 3) ≤ 15 ∧ win1_7.index t (1 : Fin 3) = 0 ∧ win1_7.index t (2 : Fin 3) ≤ 3)
    ∧ (win1_8.index t (0 : Fin 3) = win1_7.index t (0 : Fin 3) ∧ win1_8.index t (1 : Fin 3) = 0 ∧ win1_8.index t (2 : Fin 3) = win1_7.index t (2 : Fin 3))
    ∧ (win1_9.index t (0 : Fin 3) = win1_7.index t (0 : Fin 3) ∧ win1_9.index t (1 : Fin 3) = 0 ∧ win1_9.index t (2 : Fin 3) = win1_7.index t (2 : Fin 3))
    ∧ (win1_10.index t (0 : Fin 3) = win1_7.index t (0 : Fin 3) ∧ win1_10.index t (1 : Fin 3) = 0 ∧ win1_10.index t (2 : Fin 3) = win1_7.index t (2 : Fin 3)) :=
  (by decide +kernel : ∀ t : Fin grid1.N, _)

/-- Every block `(i, 0, j)` is some point's. -/
theorem onto7 : ∀ (q0 : Fin 16) (q2 : Fin 4), ∃ t : Fin cfg1.N, win1_7.index t = ![q0.val, 0, q2.val] :=
  (by decide +kernel : ∀ (q0 : Fin 16) (q2 : Fin 4), ∃ t : Fin grid1.N, win1_7.index t = ![q0.val, 0, q2.val])

theorem bnd0 (t : Fin cfg1.N) (a : Fin 8) : win1_7.index t (0 : Fin 3) * 8 + a.val < 128 := by
  obtain ⟨⟨e, -, -⟩, -⟩ := idx_out t; have := a.isLt; omega
theorem bnd2 (t : Fin cfg1.N) (k : Fin 128) : win1_7.index t (2 : Fin 3) * 128 + k.val < 512 := by
  obtain ⟨⟨-, -, e⟩, -⟩ := idx_out t; have := k.isLt; omega
/-- The batch row of the array that row `a` of point `t`'s block is. -/
abbrev rowOf (t : Fin cfg1.N) (a : Fin 8) : Fin 128 := ⟨win1_7.index t (0 : Fin 3) * 8 + a.val, bnd0 t a⟩
/-- The channel of the array that channel `k` of point `t`'s block is. -/
abbrev chOf (t : Fin cfg1.N) (k : Fin 128) : Fin 512 := ⟨win1_7.index t (2 : Fin 3) * 128 + k.val, bnd2 t k⟩

/-! ## The input blocks, read where the result block lies -/

theorem blk1_0 (c : Dev nD) (t : Fin cfg1.N) (a : Fin 8) (b : Fin 256) (k : Fin 128) :
    iblk1 V c 0 t (ix3 a b k) = V c main_arg7 (ix3 (rowOf t a) b (chOf t k)) := by
  unfold iblk1
  show V c main_arg7 (((cfg1.win 0).blk t).view.emb (ix3 a b k)) = V c main_arg7 (ix3 (rowOf t a) b (chOf t k))
  refine congrArg _ (funext fun ax => Fin.ext ?_)
  obtain ⟨⟨e0, e1, e2⟩, -⟩ := idx_tr t
  match ax with
  | ⟨0, _⟩ => show win1_0.index t (0 : Fin 3) * 8 + 1 * a.val = win1_7.index t (0 : Fin 3) * 8 + a.val; rw [e0]; omega
  | ⟨1, _⟩ => show win1_0.index t (1 : Fin 3) * 256 + 1 * b.val = b.val; rw [e1]; omega
  | ⟨2, _⟩ => show win1_0.index t (2 : Fin 3) * 128 + 1 * k.val = win1_7.index t (2 : Fin 3) * 128 + k.val; rw [e2]; omega
theorem blk1_1 (c : Dev nD) (t : Fin cfg1.N) (a : Fin 8) (b : Fin 256) (k : Fin 128) :
    iblk1 V c 1 t (ix3 a b k) = V c main_arg8 (ix3 (rowOf t a) b (chOf t k)) := by
  unfold iblk1
  show V c main_arg8 (((cfg1.win 1).blk t).view.emb (ix3 a b k)) = V c main_arg8 (ix3 (rowOf t a) b (chOf t k))
  refine congrArg _ (funext fun ax => Fin.ext ?_)
  obtain ⟨-, ⟨e0, e1, e2⟩, -⟩ := idx_tr t
  match ax with
  | ⟨0, _⟩ => show win1_1.index t (0 : Fin 3) * 8 + 1 * a.val = win1_7.index t (0 : Fin 3) * 8 + a.val; rw [e0]; omega
  | ⟨1, _⟩ => show win1_1.index t (1 : Fin 3) * 256 + 1 * b.val = b.val; rw [e1]; omega
  | ⟨2, _⟩ => show win1_1.index t (2 : Fin 3) * 128 + 1 * k.val = win1_7.index t (2 : Fin 3) * 128 + k.val; rw [e2]; omega
theorem blk1_2 (c : Dev nD) (t : Fin cfg1.N) (a : Fin 8) (b : Fin 256) (k : Fin 128) :
    iblk1 V c 2 t (ix3 a b k) = V c main_arg9 (ix3 (rowOf t a) b (chOf t k)) := by
  unfold iblk1
  show V c main_arg9 (((cfg1.win 2).blk t).view.emb (ix3 a b k)) = V c main_arg9 (ix3 (rowOf t a) b (chOf t k))
  refine congrArg _ (funext fun ax => Fin.ext ?_)
  obtain ⟨-, -, ⟨e0, e1, e2⟩, -⟩ := idx_tr t
  match ax with
  | ⟨0, _⟩ => show win1_2.index t (0 : Fin 3) * 8 + 1 * a.val = win1_7.index t (0 : Fin 3) * 8 + a.val; rw [e0]; omega
  | ⟨1, _⟩ => show win1_2.index t (1 : Fin 3) * 256 + 1 * b.val = b.val; rw [e1]; omega
  | ⟨2, _⟩ => show win1_2.index t (2 : Fin 3) * 128 + 1 * k.val = win1_7.index t (2 : Fin 3) * 128 + k.val; rw [e2]; omega
theorem blk1_3 (c : Dev nD) (t : Fin cfg1.N) (a : Fin 8) (b : Fin 256) (k : Fin 128) :
    iblk1 V c 3 t (ix3 a b k) = V c main_arg10 (ix3 (rowOf t a) b (chOf t k)) := by
  unfold iblk1
  show V c main_arg10 (((cfg1.win 3).blk t).view.emb (ix3 a b k)) = V c main_arg10 (ix3 (rowOf t a) b (chOf t k))
  refine congrArg _ (funext fun ax => Fin.ext ?_)
  obtain ⟨-, -, -, ⟨e0, e1, e2⟩⟩ := idx_tr t
  match ax with
  | ⟨0, _⟩ => show win1_3.index t (0 : Fin 3) * 8 + 1 * a.val = win1_7.index t (0 : Fin 3) * 8 + a.val; rw [e0]; omega
  | ⟨1, _⟩ => show win1_3.index t (1 : Fin 3) * 256 + 1 * b.val = b.val; rw [e1]; omega
  | ⟨2, _⟩ => show win1_3.index t (2 : Fin 3) * 128 + 1 * k.val = win1_7.index t (2 : Fin 3) * 128 + k.val; rw [e2]; omega
theorem blk1_4 (c : Dev nD) (t : Fin cfg1.N) (a : Fin 8) (b : Fin 256) :
    iblk1 V c 4 t (ix2 a b) = V c main_arg0 (ix2 (rowOf t a) b) := by
  unfold iblk1
  show V c main_arg0 (((cfg1.win 4).blk t).view.emb (ix2 a b)) = V c main_arg0 (ix2 (rowOf t a) b)
  refine congrArg _ (funext fun ax => Fin.ext ?_)
  obtain ⟨e0, e1, -, -⟩ := idx_in t
  match ax with
  | ⟨0, _⟩ => show win1_4.index t (0 : Fin 2) * 8 + 1 * a.val = win1_7.index t (0 : Fin 3) * 8 + a.val; rw [e0]; omega
  | ⟨1, _⟩ => show win1_4.index t (1 : Fin 2) * 256 + 1 * b.val = b.val; rw [e1]; omega
theorem blk1_5 (c : Dev nD) (t : Fin cfg1.N) (k : Fin 128) :
    iblk1 V c 5 t (ix1 k) = V c main_arg13 (ix1 (chOf t k)) := by
  unfold iblk1
  show V c main_arg13 (((cfg1.win 5).blk t).view.emb (ix1 k)) = V c main_arg13 (ix1 (chOf t k))
  refine congrArg _ (funext fun ax => Fin.ext ?_)
  obtain ⟨-, -, e, -⟩ := idx_in t
  match ax with
  | ⟨0, _⟩ => show win1_5.index t (0 : Fin 1) * 128 + 1 * k.val = win1_7.index t (2 : Fin 3) * 128 + k.val; rw [e]; omega
theorem blk1_6 (c : Dev nD) (t : Fin cfg1.N) (k : Fin 128) :
    iblk1 V c 6 t (ix1 k) = V c main_arg14 (ix1 (chOf t k)) := by
  unfold iblk1
  show V c main_arg14 (((cfg1.win 6).blk t).view.emb (ix1 k)) = V c main_arg14 (ix1 (chOf t k))
  refine congrArg _ (funext fun ax => Fin.ext ?_)
  obtain ⟨-, -, -, e⟩ := idx_in t
  match ax with
  | ⟨0, _⟩ => show win1_6.index t (0 : Fin 1) * 128 + 1 * k.val = win1_7.index t (2 : Fin 3) * 128 + k.val; rw [e]; omega

/-! ## The result blocks -/

theorem emb7 (t : Fin cfg1.N) (a : Fin 8) (b : Fin 256) (k : Fin 128) :
    ((cfg1.win 7).blk t).view.emb (ix3 a b k) = ix3 (rowOf t a) b (chOf t k) := by
  obtain ⟨⟨-, e1, -⟩, -⟩ := idx_out t
  funext ax; apply Fin.ext
  match ax with
  | ⟨0, _⟩ => show win1_7.index t (0 : Fin 3) * 8 + 1 * a.val = win1_7.index t (0 : Fin 3) * 8 + a.val; omega
  | ⟨1, _⟩ => show win1_7.index t (1 : Fin 3) * 256 + 1 * b.val = b.val; rw [e1]; omega
  | ⟨2, _⟩ => show win1_7.index t (2 : Fin 3) * 128 + 1 * k.val = win1_7.index t (2 : Fin 3) * 128 + k.val; omega

/-- An index of the array is in point `t`'s block iff each coordinate is in the block's range on its axis. -/
theorem mem_blk7 (t : Fin cfg1.N) (i : S128x256x512.Idx) :
    i ∈ ((cfg1.win 7).blk t).view.set ↔ ∀ a : Fin 3, win1_7.index t a * S8x256x128.size a ≤ (i a).val ∧ (i a).val < win1_7.index t a * S8x256x128.size a + S8x256x128.size a := by
  show i ∈ ((View.whole main_v1_0).slice (win1_7.rect t)).set ↔ _
  rw [View.set_slice_whole, Rect.mem_set_unit]
  exact Iff.rfl

/-- The blocks tile the array: row `r` and channel `q` lie in the block of point `(r / 8, q / 128)`. -/
theorem cover7 (i : S128x256x512.Idx) : ∃ t : Fin cfg1.N, (cfg1.win 7).flush t = true ∧ i ∈ ((cfg1.win 7).blk t).view.set := by
  have hi0 : (i 0).val < 128 := (i 0).isLt
  have hi1 : (i 1).val < 256 := (i 1).isLt
  have hi2 : (i 2).val < 512 := (i 2).isLt
  obtain ⟨t, ht⟩ := onto7 ⟨(i 0).val / 8, by omega⟩ ⟨(i 2).val / 128, by omega⟩
  have q0 : win1_7.index t (0 : Fin 3) = (i 0).val / 8 := congrFun ht 0
  have q1 : win1_7.index t (1 : Fin 3) = 0 := congrFun ht 1
  have q2 : win1_7.index t (2 : Fin 3) = (i 2).val / 128 := congrFun ht 2

  refine ⟨t, flush1_7 t, ?_⟩
  rw [mem_blk7]
  intro a
  match a with
  | ⟨0, _⟩ => show win1_7.index t (0 : Fin 3) * 8 ≤ (i 0).val ∧ (i 0).val < win1_7.index t (0 : Fin 3) * 8 + 8; omega
  | ⟨1, _⟩ => show win1_7.index t (1 : Fin 3) * 256 ≤ (i 1).val ∧ (i 1).val < win1_7.index t (1 : Fin 3) * 256 + 256; rw [q1]; omega
  | ⟨2, _⟩ => show win1_7.index t (2 : Fin 3) * 128 ≤ (i 2).val ∧ (i 2).val < win1_7.index t (2 : Fin 3) * 128 + 128; omega

theorem emb8 (t : Fin cfg1.N) (a : Fin 8) (b : Fin 256) (k : Fin 128) :
    ((cfg1.win 8).blk t).view.emb (ix3 a b k) = ix3 (rowOf t a) b (chOf t k) := by
  obtain ⟨-, ⟨e0, e1, e2⟩, -⟩ := idx_out t
  funext ax; apply Fin.ext
  match ax with
  | ⟨0, _⟩ => show win1_8.index t (0 : Fin 3) * 8 + 1 * a.val = win1_7.index t (0 : Fin 3) * 8 + a.val; rw [e0]; omega
  | ⟨1, _⟩ => show win1_8.index t (1 : Fin 3) * 256 + 1 * b.val = b.val; rw [e1]; omega
  | ⟨2, _⟩ => show win1_8.index t (2 : Fin 3) * 128 + 1 * k.val = win1_7.index t (2 : Fin 3) * 128 + k.val; rw [e2]; omega

/-- An index of the array is in point `t`'s block iff each coordinate is in the block's range on its axis. -/
theorem mem_blk8 (t : Fin cfg1.N) (i : S128x256x512.Idx) :
    i ∈ ((cfg1.win 8).blk t).view.set ↔ ∀ a : Fin 3, win1_8.index t a * S8x256x128.size a ≤ (i a).val ∧ (i a).val < win1_8.index t a * S8x256x128.size a + S8x256x128.size a := by
  show i ∈ ((View.whole main_v1_1).slice (win1_8.rect t)).set ↔ _
  rw [View.set_slice_whole, Rect.mem_set_unit]
  exact Iff.rfl

/-- The blocks tile the array: row `r` and channel `q` lie in the block of point `(r / 8, q / 128)`. -/
theorem cover8 (i : S128x256x512.Idx) : ∃ t : Fin cfg1.N, (cfg1.win 8).flush t = true ∧ i ∈ ((cfg1.win 8).blk t).view.set := by
  have hi0 : (i 0).val < 128 := (i 0).isLt
  have hi1 : (i 1).val < 256 := (i 1).isLt
  have hi2 : (i 2).val < 512 := (i 2).isLt
  obtain ⟨t, ht⟩ := onto7 ⟨(i 0).val / 8, by omega⟩ ⟨(i 2).val / 128, by omega⟩
  have q0 : win1_7.index t (0 : Fin 3) = (i 0).val / 8 := congrFun ht 0
  have q1 : win1_7.index t (1 : Fin 3) = 0 := congrFun ht 1
  have q2 : win1_7.index t (2 : Fin 3) = (i 2).val / 128 := congrFun ht 2
  obtain ⟨-, ⟨e0, e1, e2⟩, -⟩ := idx_out t
  refine ⟨t, flush1_8 t, ?_⟩
  rw [mem_blk8]
  intro a
  match a with
  | ⟨0, _⟩ => show win1_8.index t (0 : Fin 3) * 8 ≤ (i 0).val ∧ (i 0).val < win1_8.index t (0 : Fin 3) * 8 + 8; rw [e0]; omega
  | ⟨1, _⟩ => show win1_8.index t (1 : Fin 3) * 256 ≤ (i 1).val ∧ (i 1).val < win1_8.index t (1 : Fin 3) * 256 + 256; rw [e1]; omega
  | ⟨2, _⟩ => show win1_8.index t (2 : Fin 3) * 128 ≤ (i 2).val ∧ (i 2).val < win1_8.index t (2 : Fin 3) * 128 + 128; rw [e2]; omega

theorem emb9 (t : Fin cfg1.N) (a : Fin 8) (b : Fin 256) (k : Fin 128) :
    ((cfg1.win 9).blk t).view.emb (ix3 a b k) = ix3 (rowOf t a) b (chOf t k) := by
  obtain ⟨-, -, ⟨e0, e1, e2⟩, -⟩ := idx_out t
  funext ax; apply Fin.ext
  match ax with
  | ⟨0, _⟩ => show win1_9.index t (0 : Fin 3) * 8 + 1 * a.val = win1_7.index t (0 : Fin 3) * 8 + a.val; rw [e0]; omega
  | ⟨1, _⟩ => show win1_9.index t (1 : Fin 3) * 256 + 1 * b.val = b.val; rw [e1]; omega
  | ⟨2, _⟩ => show win1_9.index t (2 : Fin 3) * 128 + 1 * k.val = win1_7.index t (2 : Fin 3) * 128 + k.val; rw [e2]; omega

/-- An index of the array is in point `t`'s block iff each coordinate is in the block's range on its axis. -/
theorem mem_blk9 (t : Fin cfg1.N) (i : S128x256x512.Idx) :
    i ∈ ((cfg1.win 9).blk t).view.set ↔ ∀ a : Fin 3, win1_9.index t a * S8x256x128.size a ≤ (i a).val ∧ (i a).val < win1_9.index t a * S8x256x128.size a + S8x256x128.size a := by
  show i ∈ ((View.whole main_v1_2).slice (win1_9.rect t)).set ↔ _
  rw [View.set_slice_whole, Rect.mem_set_unit]
  exact Iff.rfl

/-- The blocks tile the array: row `r` and channel `q` lie in the block of point `(r / 8, q / 128)`. -/
theorem cover9 (i : S128x256x512.Idx) : ∃ t : Fin cfg1.N, (cfg1.win 9).flush t = true ∧ i ∈ ((cfg1.win 9).blk t).view.set := by
  have hi0 : (i 0).val < 128 := (i 0).isLt
  have hi1 : (i 1).val < 256 := (i 1).isLt
  have hi2 : (i 2).val < 512 := (i 2).isLt
  obtain ⟨t, ht⟩ := onto7 ⟨(i 0).val / 8, by omega⟩ ⟨(i 2).val / 128, by omega⟩
  have q0 : win1_7.index t (0 : Fin 3) = (i 0).val / 8 := congrFun ht 0
  have q1 : win1_7.index t (1 : Fin 3) = 0 := congrFun ht 1
  have q2 : win1_7.index t (2 : Fin 3) = (i 2).val / 128 := congrFun ht 2
  obtain ⟨-, -, ⟨e0, e1, e2⟩, -⟩ := idx_out t
  refine ⟨t, flush1_9 t, ?_⟩
  rw [mem_blk9]
  intro a
  match a with
  | ⟨0, _⟩ => show win1_9.index t (0 : Fin 3) * 8 ≤ (i 0).val ∧ (i 0).val < win1_9.index t (0 : Fin 3) * 8 + 8; rw [e0]; omega
  | ⟨1, _⟩ => show win1_9.index t (1 : Fin 3) * 256 ≤ (i 1).val ∧ (i 1).val < win1_9.index t (1 : Fin 3) * 256 + 256; rw [e1]; omega
  | ⟨2, _⟩ => show win1_9.index t (2 : Fin 3) * 128 ≤ (i 2).val ∧ (i 2).val < win1_9.index t (2 : Fin 3) * 128 + 128; rw [e2]; omega

theorem emb10 (t : Fin cfg1.N) (a : Fin 8) (b : Fin 256) (k : Fin 128) :
    ((cfg1.win 10).blk t).view.emb (ix3 a b k) = ix3 (rowOf t a) b (chOf t k) := by
  obtain ⟨-, -, -, ⟨e0, e1, e2⟩⟩ := idx_out t
  funext ax; apply Fin.ext
  match ax with
  | ⟨0, _⟩ => show win1_10.index t (0 : Fin 3) * 8 + 1 * a.val = win1_7.index t (0 : Fin 3) * 8 + a.val; rw [e0]; omega
  | ⟨1, _⟩ => show win1_10.index t (1 : Fin 3) * 256 + 1 * b.val = b.val; rw [e1]; omega
  | ⟨2, _⟩ => show win1_10.index t (2 : Fin 3) * 128 + 1 * k.val = win1_7.index t (2 : Fin 3) * 128 + k.val; rw [e2]; omega

/-- An index of the array is in point `t`'s block iff each coordinate is in the block's range on its axis. -/
theorem mem_blk10 (t : Fin cfg1.N) (i : S128x256x512.Idx) :
    i ∈ ((cfg1.win 10).blk t).view.set ↔ ∀ a : Fin 3, win1_10.index t a * S8x256x128.size a ≤ (i a).val ∧ (i a).val < win1_10.index t a * S8x256x128.size a + S8x256x128.size a := by
  show i ∈ ((View.whole main_v1_3).slice (win1_10.rect t)).set ↔ _
  rw [View.set_slice_whole, Rect.mem_set_unit]
  exact Iff.rfl

/-- The blocks tile the array: row `r` and channel `q` lie in the block of point `(r / 8, q / 128)`. -/
theorem cover10 (i : S128x256x512.Idx) : ∃ t : Fin cfg1.N, (cfg1.win 10).flush t = true ∧ i ∈ ((cfg1.win 10).blk t).view.set := by
  have hi0 : (i 0).val < 128 := (i 0).isLt
  have hi1 : (i 1).val < 256 := (i 1).isLt
  have hi2 : (i 2).val < 512 := (i 2).isLt
  obtain ⟨t, ht⟩ := onto7 ⟨(i 0).val / 8, by omega⟩ ⟨(i 2).val / 128, by omega⟩
  have q0 : win1_7.index t (0 : Fin 3) = (i 0).val / 8 := congrFun ht 0
  have q1 : win1_7.index t (1 : Fin 3) = 0 := congrFun ht 1
  have q2 : win1_7.index t (2 : Fin 3) = (i 2).val / 128 := congrFun ht 2
  obtain ⟨-, -, -, ⟨e0, e1, e2⟩⟩ := idx_out t
  refine ⟨t, flush1_10 t, ?_⟩
  rw [mem_blk10]
  intro a
  match a with
  | ⟨0, _⟩ => show win1_10.index t (0 : Fin 3) * 8 ≤ (i 0).val ∧ (i 0).val < win1_10.index t (0 : Fin 3) * 8 + 8; rw [e0]; omega
  | ⟨1, _⟩ => show win1_10.index t (1 : Fin 3) * 256 ≤ (i 1).val ∧ (i 1).val < win1_10.index t (1 : Fin 3) * 256 + 256; rw [e1]; omega
  | ⟨2, _⟩ => show win1_10.index t (2 : Fin 3) * 128 ≤ (i 2).val ∧ (i 2).val < win1_10.index t (2 : Fin 3) * 128 + 128; rw [e2]; omega

/-! ## What a point writes back, and the arrays after the region -/

theorem flushed1_7 (c : Dev nD) (t : Fin cfg1.N) :
    (dat1 V c).flushed 7 t = ((cfg1.win 7).blk t).view.read (Elt Ideal) (val_main_v126 (V c main_arg0) (V c main_arg7) (V c main_arg8) (V c main_arg13) (V c main_arg14)) := by
  show (cfg1.win 7).cut (grid1.coords t) ((dat1 V c).after 7 t) = _
  rw [after1_7]
  unfold out1_7
  rw [View.canon_unit_zero hz3]
  simp only [View.ld_unit_zero (S := S128) hz1, View.ld_unit_zero (S := S8x256) hz2, View.ld_unit_zero (S := S8x256x128) hz3]
  funext y
  obtain ⟨a, b, k, rfl⟩ : ∃ (a : Fin 8) (b : Fin 256) (k : Fin 128), y = ix3 a b k := ⟨y 0, y 1, y 2, eq_ix3 y⟩
  show k1_pay9 (iblk1 V c 5 t) (iblk1 V c 6 t) (iblk1 V c 4 t) (iblk1 V c 0 t) (iblk1 V c 1 t) (ix3 a b k)
    = (val_main_v126 (V c main_arg0) (V c main_arg7) (V c main_arg8) (V c main_arg13) (V c main_arg14)) (((cfg1.win 7).blk t).view.emb (ix3 a b k))
  rw [Big.ker_w11, emb7 t a b k, Cert.ReferenceIdeal.Traces.ref_w11]
  rw [blk1_5, blk1_6, blk1_4, blk1_0, blk1_1]

/-- The array after the region. -/
theorem arr1_7 (c : Dev nD) : (dat1 V c).arrAt 7 cfg1.N = val_main_v126 (V c main_arg0) (V c main_arg7) (V c main_arg8) (V c main_arg13) (V c main_arg14) :=
  (dat1 V c).arrAt_eq_of_cover 7 _ (fun t _ => flushed1_7 V c t) cover7

theorem flushed1_8 (c : Dev nD) (t : Fin cfg1.N) :
    (dat1 V c).flushed 8 t = ((cfg1.win 8).blk t).view.read (Elt Ideal) (val_main_v133 (V c main_arg7) (V c main_arg8) (V c main_arg13) (V c main_arg14)) := by
  show (cfg1.win 8).cut (grid1.coords t) ((dat1 V c).after 8 t) = _
  rw [after1_8]
  unfold out1_8
  rw [View.canon_unit_zero hz3]
  simp only [View.ld_unit_zero (S := S128) hz1, View.ld_unit_zero (S := S8x256) hz2, View.ld_unit_zero (S := S8x256x128) hz3]
  funext y
  obtain ⟨a, b, k, rfl⟩ : ∃ (a : Fin 8) (b : Fin 256) (k : Fin 128), y = ix3 a b k := ⟨y 0, y 1, y 2, eq_ix3 y⟩
  show k1_pay1 (iblk1 V c 1 t) (k1_pay10 (iblk1 V c 5 t) (iblk1 V c 6 t) (iblk1 V c 0 t)) (k1_pay11 (iblk1 V c 5 t) (iblk1 V c 6 t)) (ix3 a b k)
    = (val_main_v133 (V c main_arg7) (V c main_arg8) (V c main_arg13) (V c main_arg14)) (((cfg1.win 8).blk t).view.emb (ix3 a b k))
  rw [Big.ker_w12, emb8 t a b k, Cert.ReferenceIdeal.Traces.ref_w12]
  rw [blk1_5, blk1_6, blk1_0, blk1_1]

/-- The array after the region. -/
theorem arr1_8 (c : Dev nD) : (dat1 V c).arrAt 8 cfg1.N = val_main_v133 (V c main_arg7) (V c main_arg8) (V c main_arg13) (V c main_arg14) :=
  (dat1 V c).arrAt_eq_of_cover 8 _ (fun t _ => flushed1_8 V c t) cover8

theorem flushed1_9 (c : Dev nD) (t : Fin cfg1.N) :
    (dat1 V c).flushed 9 t = ((cfg1.win 9).blk t).view.read (Elt Ideal) (val_main_v140 (V c main_arg9) (V c main_arg10) (V c main_arg13) (V c main_arg14)) := by
  show (cfg1.win 9).cut (grid1.coords t) ((dat1 V c).after 9 t) = _
  rw [after1_9]
  unfold out1_9
  rw [View.canon_unit_zero hz3]
  simp only [View.ld_unit_zero (S := S128) hz1, View.ld_unit_zero (S := S8x256) hz2, View.ld_unit_zero (S := S8x256x128) hz3]
  funext y
  obtain ⟨a, b, k, rfl⟩ : ∃ (a : Fin 8) (b : Fin 256) (k : Fin 128), y = ix3 a b k := ⟨y 0, y 1, y 2, eq_ix3 y⟩
  show k1_pay2 (k1_pay6 (iblk1 V c 5 t) (iblk1 V c 6 t)) (k1_pay7 (iblk1 V c 5 t) (iblk1 V c 6 t)) (iblk1 V c 2 t) (iblk1 V c 3 t) (ix3 a b k)
    = (val_main_v140 (V c main_arg9) (V c main_arg10) (V c main_arg13) (V c main_arg14)) (((cfg1.win 9).blk t).view.emb (ix3 a b k))
  rw [Big.ker_w21, emb9 t a b k, Cert.ReferenceIdeal.Traces.ref_w21]
  rw [blk1_5, blk1_6, blk1_2, blk1_3]

/-- The array after the region. -/
theorem arr1_9 (c : Dev nD) : (dat1 V c).arrAt 9 cfg1.N = val_main_v140 (V c main_arg9) (V c main_arg10) (V c main_arg13) (V c main_arg14) :=
  (dat1 V c).arrAt_eq_of_cover 9 _ (fun t _ => flushed1_9 V c t) cover9

theorem flushed1_10 (c : Dev nD) (t : Fin cfg1.N) :
    (dat1 V c).flushed 10 t = ((cfg1.win 10).blk t).view.read (Elt Ideal) (val_main_v148 (V c main_arg0) (V c main_arg9) (V c main_arg10) (V c main_arg13) (V c main_arg14)) := by
  show (cfg1.win 10).cut (grid1.coords t) ((dat1 V c).after 10 t) = _
  rw [after1_10]
  unfold out1_10
  rw [View.canon_unit_zero hz3]
  simp only [View.ld_unit_zero (S := S128) hz1, View.ld_unit_zero (S := S8x256) hz2, View.ld_unit_zero (S := S8x256x128) hz3]
  funext y
  obtain ⟨a, b, k, rfl⟩ : ∃ (a : Fin 8) (b : Fin 256) (k : Fin 128), y = ix3 a b k := ⟨y 0, y 1, y 2, eq_ix3 y⟩
  show k1_pay3 (k1_pay6 (iblk1 V c 5 t) (iblk1 V c 6 t)) (k1_pay7 (iblk1 V c 5 t) (iblk1 V c 6 t)) (k1_pay8 (iblk1 V c 5 t) (iblk1 V c 4 t)) (iblk1 V c 2 t) (iblk1 V c 3 t) (ix3 a b k)
    = (val_main_v148 (V c main_arg0) (V c main_arg9) (V c main_arg10) (V c main_arg13) (V c main_arg14)) (((cfg1.win 10).blk t).view.emb (ix3 a b k))
  rw [Big.ker_w22, emb10 t a b k, Cert.ReferenceIdeal.Traces.ref_w22]
  rw [blk1_5, blk1_6, blk1_4, blk1_2, blk1_3]

/-- The array after the region. -/
theorem arr1_10 (c : Dev nD) : (dat1 V c).arrAt 10 cfg1.N = val_main_v148 (V c main_arg0) (V c main_arg9) (V c main_arg10) (V c main_arg13) (V c main_arg14) :=
  (dat1 V c).arrAt_eq_of_cover 10 _ (fun t _ => flushed1_10 V c t) cover10

end Cert.KernelIdeal.Region1

end
-- ==== Proof.KernelValue.lean ====
/-
  The idealized kernel's run with every result named.

  After the run each result array holds the contents the fold through the two regions gives it (KernelRun.lean). A result
  of the small kernel is untouched by the second region, so it holds what the first region left: the reference's stage of
  the launch arrays (Region0.lean). A result of the tiled kernel holds what the second region left: the reference's stage
  of the arrays as that region finds them (Region1.lean), and it finds every argument as launched. The arguments end as
  launched.
-/
import proofs.«122799_j53712861003855_1_alg».proof.Proof.KernelRun
import proofs.«122799_j53712861003855_1_alg».proof.Proof.Region0
import proofs.«122799_j53712861003855_1_alg».proof.Proof.Region1

set_option maxRecDepth 16384

noncomputable section

namespace Cert.KernelIdeal.Named

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-! ## The fold at each result array -/

theorem W2_main_v0_0 (c : Dev nD) : W2 m ρ c (Proc.devRef .tc main_v0_0) = val_main_v150 (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) :=
  (W2_of_ne m ρ c main_v0_0 (by decide)).trans ((W1_arr m ρ c 11).trans (Region0.arr_11 (V0 m ρ) c))
theorem W2_main_v0_1 (c : Dev nD) : W2 m ρ c (Proc.devRef .tc main_v0_1) = val_main_v24 (m ((c : Thread nD τ).loc main_arg0)) (m ((c : Thread nD τ).loc main_arg1)) (m ((c : Thread nD τ).loc main_arg2)) (m ((c : Thread nD τ).loc main_arg11)) (m ((c : Thread nD τ).loc main_arg13)) (m ((c : Thread nD τ).loc main_arg14)) :=
  (W2_of_ne m ρ c main_v0_1 (by decide)).trans ((W1_arr m ρ c 12).trans (Region0.arr_12 (V0 m ρ) c))
theorem W2_main_v0_2 (c : Dev nD) : W2 m ρ c (Proc.devRef .tc main_v0_2) = val_main_v35 (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14)) :=
  (W2_of_ne m ρ c main_v0_2 (by decide)).trans ((W1_arr m ρ c 13).trans (Region0.arr_13 (V0 m ρ) c))
theorem W2_main_v0_3 (c : Dev nD) : W2 m ρ c (Proc.devRef .tc main_v0_3) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg13)) (m ((c : Thread nD τ).loc main_arg14)) :=
  (W2_of_ne m ρ c main_v0_3 (by decide)).trans ((W1_arr m ρ c 14).trans (Region0.arr_14 (V0 m ρ) c))
theorem W2_main_v0_4 (c : Dev nD) : W2 m ρ c (Proc.devRef .tc main_v0_4) = val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg13)) (m ((c : Thread nD τ).loc main_arg14)) :=
  (W2_of_ne m ρ c main_v0_4 (by decide)).trans ((W1_arr m ρ c 15).trans (Region0.arr_15 (V0 m ρ) c))
theorem W2_main_v0_5 (c : Dev nD) : W2 m ρ c (Proc.devRef .tc main_v0_5) = val_main_v98 (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14)) :=
  (W2_of_ne m ρ c main_v0_5 (by decide)).trans ((W1_arr m ρ c 16).trans (Region0.arr_16 (V0 m ρ) c))
theorem W2_main_v0_6 (c : Dev nD) : W2 m ρ c (Proc.devRef .tc main_v0_6) = val_main_v113 (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14)) :=
  (W2_of_ne m ρ c main_v0_6 (by decide)).trans ((W1_arr m ρ c 17).trans (Region0.arr_17 (V0 m ρ) c))
theorem W2_main_v1_0 (c : Dev nD) : W2 m ρ c (Proc.devRef .tc main_v1_0) = val_main_v126 (m ((c : Thread nD τ).loc main_arg0)) (m ((c : Thread nD τ).loc main_arg7)) (m ((c : Thread nD τ).loc main_arg8)) (m ((c : Thread nD τ).loc main_arg13)) (m ((c : Thread nD τ).loc main_arg14)) := by
  refine (W2_arr m ρ c 7).trans ((Region1.arr1_7 (V1 m ρ) c).trans ?_)
  rw [V1_main_arg0 m ρ c, V1_main_arg7 m ρ c, V1_main_arg8 m ρ c, V1_main_arg13 m ρ c, V1_main_arg14 m ρ c]
theorem W2_main_v1_1 (c : Dev nD) : W2 m ρ c (Proc.devRef .tc main_v1_1) = val_main_v133 (m ((c : Thread nD τ).loc main_arg7)) (m ((c : Thread nD τ).loc main_arg8)) (m ((c : Thread nD τ).loc main_arg13)) (m ((c : Thread nD τ).loc main_arg14)) := by
  refine (W2_arr m ρ c 8).trans ((Region1.arr1_8 (V1 m ρ) c).trans ?_)
  rw [V1_main_arg7 m ρ c, V1_main_arg8 m ρ c, V1_main_arg13 m ρ c, V1_main_arg14 m ρ c]
theorem W2_main_v1_2 (c : Dev nD) : W2 m ρ c (Proc.devRef .tc main_v1_2) = val_main_v140 (m ((c : Thread nD τ).loc main_arg9)) (m ((c : Thread nD τ).loc main_arg10)) (m ((c : Thread nD τ).loc main_arg13)) (m ((c : Thread nD τ).loc main_arg14)) := by
  refine (W2_arr m ρ c 9).trans ((Region1.arr1_9 (V1 m ρ) c).trans ?_)
  rw [V1_main_arg9 m ρ c, V1_main_arg10 m ρ c, V1_main_arg13 m ρ c, V1_main_arg14 m ρ c]
theorem W2_main_v1_3 (c : Dev nD) : W2 m ρ c (Proc.devRef .tc main_v1_3) = val_main_v148 (m ((c : Thread nD τ).loc main_arg0)) (m ((c : Thread nD τ).loc main_arg9)) (m ((c : Thread nD τ).loc main_arg10)) (m ((c : Thread nD τ).loc main_arg13)) (m ((c : Thread nD τ).loc main_arg14)) := by
  refine (W2_arr m ρ c 10).trans ((Region1.arr1_10 (V1 m ρ) c).trans ?_)
  rw [V1_main_arg0 m ρ c, V1_main_arg9 m ρ c, V1_main_arg10 m ρ c, V1_main_arg13 m ρ c, V1_main_arg14 m ρ c]

/-! ## The run -/

/-- Every weakly fair execution of the idealized kernel terminates without a fault, each result array ending at the
    reference's stage of the launch arrays and each argument as launched. -/
theorem run : θ_run defs (onTc (τ := τ) (main (F := Ideal))) ⟨m, fun _ => 0, ρ⟩ (fun r => ∀ c : Dev nD,
      r.2.mem ((c.tc : Thread nD τ).loc main_v0_0) = val_main_v150 (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14))
      ∧       r.2.mem ((c.tc : Thread nD τ).loc main_v0_1) = val_main_v24 (m ((c : Thread nD τ).loc main_arg0)) (m ((c : Thread nD τ).loc main_arg1)) (m ((c : Thread nD τ).loc main_arg2)) (m ((c : Thread nD τ).loc main_arg11)) (m ((c : Thread nD τ).loc main_arg13)) (m ((c : Thread nD τ).loc main_arg14))
      ∧       r.2.mem ((c.tc : Thread nD τ).loc main_v0_2) = val_main_v35 (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14))
      ∧       r.2.mem ((c.tc : Thread nD τ).loc main_v0_3) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg13)) (m ((c : Thread nD τ).loc main_arg14))
      ∧       r.2.mem ((c.tc : Thread nD τ).loc main_v0_4) = val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg13)) (m ((c : Thread nD τ).loc main_arg14))
      ∧       r.2.mem ((c.tc : Thread nD τ).loc main_v0_5) = val_main_v98 (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14))
      ∧       r.2.mem ((c.tc : Thread nD τ).loc main_v0_6) = val_main_v113 (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14))
      ∧       r.2.mem ((c.tc : Thread nD τ).loc main_v1_0) = val_main_v126 (m ((c : Thread nD τ).loc main_arg0)) (m ((c : Thread nD τ).loc main_arg7)) (m ((c : Thread nD τ).loc main_arg8)) (m ((c : Thread nD τ).loc main_arg13)) (m ((c : Thread nD τ).loc main_arg14))
      ∧       r.2.mem ((c.tc : Thread nD τ).loc main_v1_1) = val_main_v133 (m ((c : Thread nD τ).loc main_arg7)) (m ((c : Thread nD τ).loc main_arg8)) (m ((c : Thread nD τ).loc main_arg13)) (m ((c : Thread nD τ).loc main_arg14))
      ∧       r.2.mem ((c.tc : Thread nD τ).loc main_v1_2) = val_main_v140 (m ((c : Thread nD τ).loc main_arg9)) (m ((c : Thread nD τ).loc main_arg10)) (m ((c : Thread nD τ).loc main_arg13)) (m ((c : Thread nD τ).loc main_arg14))
      ∧       r.2.mem ((c.tc : Thread nD τ).loc main_v1_3) = val_main_v148 (m ((c : Thread nD τ).loc main_arg0)) (m ((c : Thread nD τ).loc main_arg9)) (m ((c : Thread nD τ).loc main_arg10)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c main_v0_0 (by decide)).trans (W2_main_v0_0 m ρ c),
     (h c main_v0_1 (by decide)).trans (W2_main_v0_1 m ρ c),
     (h c main_v0_2 (by decide)).trans (W2_main_v0_2 m ρ c),
     (h c main_v0_3 (by decide)).trans (W2_main_v0_3 m ρ c),
     (h c main_v0_4 (by decide)).trans (W2_main_v0_4 m ρ c),
     (h c main_v0_5 (by decide)).trans (W2_main_v0_5 m ρ c),
     (h c main_v0_6 (by decide)).trans (W2_main_v0_6 m ρ c),
     (h c main_v1_0 (by decide)).trans (W2_main_v1_0 m ρ c),
     (h c main_v1_1 (by decide)).trans (W2_main_v1_1 m ρ c),
     (h c main_v1_2 (by decide)).trans (W2_main_v1_2 m ρ c),
     (h c main_v1_3 (by decide)).trans (W2_main_v1_3 m ρ c),
     (h c main_arg0 (by decide)).trans (W2_main_arg0 m ρ c),
     (h c main_arg1 (by decide)).trans (W2_main_arg1 m ρ c),
     (h c main_arg2 (by decide)).trans (W2_main_arg2 m ρ c),
     (h c main_arg3 (by decide)).trans (W2_main_arg3 m ρ c),
     (h c main_arg4 (by decide)).trans (W2_main_arg4 m ρ c),
     (h c main_arg5 (by decide)).trans (W2_main_arg5 m ρ c),
     (h c main_arg6 (by decide)).trans (W2_main_arg6 m ρ c),
     (h c main_arg7 (by decide)).trans (W2_main_arg7 m ρ c),
     (h c main_arg8 (by decide)).trans (W2_main_arg8 m ρ c),
     (h c main_arg9 (by decide)).trans (W2_main_arg9 m ρ c),
     (h c main_arg10 (by decide)).trans (W2_main_arg10 m ρ c),
     (h c main_arg11 (by decide)).trans (W2_main_arg11 m ρ c),
     (h c main_arg12 (by decide)).trans (W2_main_arg12 m ρ c),
     (h c main_arg13 (by decide)).trans (W2_main_arg13 m ρ c),
     (h c main_arg14 (by decide)).trans (W2_main_arg14 m ρ c)⟩)
    (run_named m ρ)

end Cert.KernelIdeal.Named

end
-- ==== Proof.lean ====
/-
  A linear recurrent unit with real-time recurrent learning traces, in two Pallas kernels, against its jnp reference,
  over the extended reals.

  Per channel the recurrence contracts by `r = exp (-exp ν)` and rotates by the angle `exp θ`; with `A = r·cos (exp θ)`,
  `B = r·sin (exp θ)`, `γ = √(1 - r²)` the state update is `c₁ = A·h₁ - B·h₂ + γ·(x·w₁)`, `c₂ = B·h₁ + A·h₂ + γ·(x·w₂)`,
  and the eligibility traces with respect to `ν`, `θ` and the two input matrices are the same rotation applied to the
  old traces plus the derivative of the coefficients times the state, or plus the direct term `γ·x`. An un-tiled kernel
  computes the seven batch × channel results (the state after `max · 0`, stored as two halves of one array, and the six
  others); a kernel tiled 8 batch rows × 128 channels computes the four batch × input × channel weight traces. The
  reference computes all eleven with whole-array operations.

  At the ideal values the two programs apply the same exact operations in the same order, so no law of arithmetic joins
  them beyond `0 - x = -x` (the kernels negate by subtracting from zero) and `0 + s = s` (the kernel's matrix product
  accumulates into zeros); the bf16 copies the kernel multiplies are the operands themselves. What has to be shown is
  bookkeeping: that the kernels' one-row and one-fibre casts and broadcasts lay the channel coefficients where the
  reference's broadcasts do (LibLayout, Small, BigKernel, BigRef), that each region's blocks read and tile the arrays as
  claimed (Region0, Region1), and that the result arrays survive to the end of the run (KernelRun, KernelValue). The
  precondition (finite inputs) is not used. The frames of the two kernel programs are the generated ones; the
  reference's is its generated run with the results dropped; the idealization rewrote no operation.
-/
import proofs.«122799_j53712861003855_1_alg».proof.Defs
import proofs.«122799_j53712861003855_1_alg».proof.Proof.Gen.Kernel
import proofs.«122799_j53712861003855_1_alg».proof.Proof.Gen.Kernel.Skeleton
import proofs.«122799_j53712861003855_1_alg».proof.Proof.Gen.Kernel.Launch
import proofs.«122799_j53712861003855_1_alg».proof.Proof.Gen.Kernel.Points
import proofs.«122799_j53712861003855_1_alg».proof.Proof.Gen.Kernel.Frame
import proofs.«122799_j53712861003855_1_alg».proof.Proof.Gen.KernelIdeal
import proofs.«122799_j53712861003855_1_alg».proof.Proof.Gen.KernelIdeal.Skeleton
import proofs.«122799_j53712861003855_1_alg».proof.Proof.Gen.KernelIdeal.Launch
import proofs.«122799_j53712861003855_1_alg».proof.Proof.Gen.KernelIdeal.Points
import proofs.«122799_j53712861003855_1_alg».proof.Proof.Gen.KernelIdeal.Frame
import proofs.«122799_j53712861003855_1_alg».proof.Proof.Gen.ReferenceIdeal
import proofs.«122799_j53712861003855_1_alg».proof.Proof.Gen.Pre_finite_inputs
import proofs.«122799_j53712861003855_1_alg».proof.Proof.Gen.ReferenceIdeal.Run
import proofs.«122799_j53712861003855_1_alg».proof.Proof.Gen.ReferenceIdeal.Read
import proofs.«122799_j53712861003855_1_alg».proof.Proof.KernelValue
import Idealize.ShloMosaic.Adequacy
import Idealize.ShloMosaic.Init

set_option maxRecDepth 16384

noncomputable section

namespace Cert.Proof

open Idealize.ShloMosaic Idealize.SL.Sem
open Cert.ReferenceIdeal.Read

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the eleven results dropped. -/
theorem frame_ri : Cert.frame_ReferenceIdeal := fun m ρ _ =>
  (θ_run Cert.ReferenceIdeal.defs _ _).mono (fun _ h c => (h c).2.2.2.2.2.2.2.2.2.2.2)
    (Cert.ReferenceIdeal.Value.run (F := Ideal) m ρ)

/-- The ideal pass rewrote no operation. -/
theorem preserves : Cert.preserves_Kernel_KernelIdeal := trivial

/-- Both programs end with each result at the reference's stage of the kernel's launch arrays: the kernel by its named
    run, the reference by its generated run read stage by stage, the arguments' agreement rewritten. -/
theorem algebraic : Cert.algebraic_KernelIdeal_ReferenceIdeal := by
  intro m ρ m' ρ' _ hagree
  refine ⟨_, _, _, _, _, _, _, _, _, _, _, Cert.KernelIdeal.Named.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14⟩ := hagree c
  obtain ⟨r0, r1, r2, r3, r4, r5, r6, r7, r8, r9, r10, rest⟩ := h c
  refine ⟨?_, ?_, ?_, ?_, ?_, ?_, ?_, ?_, ?_, ?_, ?_, rest⟩
  · refine r0.trans ((val_main_v150_eq (F := Ideal) _ _ _ _ _ _ _).trans ?_)
    rw [a0, a1, a2, a11, a12, a13, a14]
  · refine r1.trans ((val_main_v24_eq (F := Ideal) _ _ _ _ _ _).trans ?_)
    rw [a0, a1, a2, a11, a13, a14]
  · refine r2.trans ((val_main_v35_eq (F := Ideal) _ _ _ _ _ _).trans ?_)
    rw [a0, a1, a2, a12, a13, a14]
  · refine r3.trans ((val_main_v64_eq (F := Ideal) _ _ _ _ _ _ _ _).trans ?_)
    rw [a0, a1, a2, a3, a4, a11, a13, a14]
  · refine r4.trans ((val_main_v83_eq (F := Ideal) _ _ _ _ _ _ _ _).trans ?_)
    rw [a0, a1, a2, a3, a4, a12, a13, a14]
  · refine r5.trans ((val_main_v98_eq (F := Ideal) _ _ _ _ _ _).trans ?_)
    rw [a1, a2, a5, a6, a13, a14]
  · refine r6.trans ((val_main_v113_eq (F := Ideal) _ _ _ _ _ _).trans ?_)
    rw [a1, a2, a5, a6, a13, a14]
  · refine r7.trans ((val_main_v126_eq (F := Ideal) _ _ _ _ _).trans ?_)
    rw [a0, a7, a8, a13, a14]
  · refine r8.trans ((val_main_v133_eq (F := Ideal) _ _ _ _).trans ?_)
    rw [a7, a8, a13, a14]
  · refine r9.trans ((val_main_v140_eq (F := Ideal) _ _ _ _).trans ?_)
    rw [a9, a10, a13, a14]
  · refine r10.trans ((val_main_v148_eq (F := Ideal) _ _ _ _ _).trans ?_)
    rw [a0, a9, a10, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
